-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S50257x1024 : Shape := ⟨2, ![50257, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x1024 .f32) (main_arg1 : FVec F S50257x1024 .f32) (main_arg2 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S50257x1024 .f32 := Host.absf main_arg1
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg2 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  let main_c_4 : IVec S_ 32 := constantI S_ 32 50257#32
  let main_v13 : IVec S4096 32 := broadcastInDim S4096 ![] bcast_S_S4096 main_c_4
  let main_v14 : IVec S4096 1 := cmpi .slt main_arg2 main_v13
  let main_c_5 : IVec S_ 1 := constantI S_ 1 1#1
  let main_v15 : IVec S_ 1 := (fun x v => Host.reduce IntOp.andi x v reducesTo_S4096_S_d0 h_S_) main_v14 main_c_5
  fn_part1 (F := F) main_v12 main_v15
-- ==== Kernel.lean ====
abbrev S4096x1024 : Shape := ⟨2, ![4096, 1024]⟩
abbrev S50257x1024 : Shape := ⟨2, ![50257, 1024]⟩
abbrev S4096 : Shape := ⟨1, ![4096]⟩
abbrev S4096x1 : Shape := ⟨2, ![4096, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩

abbrev nBuf : Space → Nat
  | .hbm => 23
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S50257x1024, .f32⟩
  | .hbm, ⟨2, _⟩ => ⟨S4096, .i32⟩
  | .hbm, ⟨3, _⟩ => ⟨S4096x1024, .bf16⟩
  | .hbm, ⟨4, _⟩ => ⟨S4096x1, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 50], ![false, false]⟩

def k0_cond3 (i : grid0.Coords) : BitVec 1 :=
  let arg1 : BitVec 32 := BitVec.ofNat 32 (i 1).val
  let c49_i32_5 : BitVec 32 := 49#32
  let v11 : BitVec 1 := Scalar.cmpi .eq arg1 c49_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  iota_S1024x1024_d1_w32 : S1024x1024.Iotas .tc 32 [1]
  bcast_S_S4096 : S_.BroadcastsInDim S4096 (![] : Fin 0 → Fin S4096.rank)
  bcast_S4096_S4096x1_0 : S4096.BroadcastsInDim S4096x1 (![0] : Fin 1 → Fin S4096x1.rank)
  reducesTo_S4096x1024_S4096_d1 : S4096x1024.ReducesTo [1] S4096
  h_S_ : 0 < S_.numel
  shapeCasts_S4096x1_S4096 : S4096x1.ShapeCasts S4096
  reducesTo_S4096_S_d0 : S4096.ReducesTo [0] S_
  dot_S1024x1024_S1024x1024_S1024x1024_1_1_0_0_n_n_wf : DotDims.WF S1024x1024 S1024x1024 S1024x1024 [1] [1] [0] [0] [] []
  gather_S50257x1024_S4096x1_S4096x1024_1_0_n_n_0_1_11024_wf : GatherDims.WF S50257x1024 S4096x1 S4096x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S50257x1024.size a
  hwx0_1 : ∀ i : grid0.Coords, EltTy.bits .f32 = 32 ∨ (Rect.unit (s := S50257x1024) (fun a => cc0_transform_1 i a * S1024x1024.size a) (fun a => (Pipeline.Clip.of (cc0_transform_1 i a) (S1024x1024.size a) (S50257x1024.size a)).extent (S1024x1024.size a)) fun a => Pipeline.Clip.inb (Pipeline.Clip.ok_of (hstart0_1 i a))).WholeWords (EltTy.packing .f32)
  hwxs0_1 : ∀ i : grid0.Coords, EltTy.bits .f32 = 32 ∨ (Rect.unit (s := S1024x1024) (fun _ => 0) (fun a => (Pipeline.Clip.of (cc0_transform_1 i a) (S1024x1024.size a) (S50257x1024.size a)).extent (S1024x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def gather_S50257x1024_S4096x1_S4096x1024_1_0_n_n_0_1_11024 : GatherDims S50257x1024 S4096x1 S4096x1024 where
  offsetDims := [1]
  collapsedSliceDims := [0]
  operandBatchingDims := []
  startIndicesBatchingDims := []
  startIndexMap := [0]
  indexVectorDim := 1
  sliceSizes := ![1, 1024]
  wf := gather_S50257x1024_S4096x1_S4096x1024_1_0_n_n_0_1_11024_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S50257x1024 : Shape := ⟨2, ![50257, 1024]⟩
abbrev S4096 : Shape := ⟨1, ![4096]⟩
abbrev S4096x50257 : Shape := ⟨2, ![4096, 50257]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S50257x1024, .f32⟩
  | .hbm, ⟨2, _⟩ => ⟨S4096, .i32⟩
  | .hbm, ⟨3, _⟩ => ⟨S4096x50257, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x50257, .f32⟩
  | .hbm, ⟨11, _⟩ => ⟨S4096x50257, .f32⟩
  | .hbm, ⟨12, _⟩ => ⟨S4096x50257, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S4096x50257, .f32⟩
  | .hbm, ⟨18, _⟩ => ⟨S4096x50257, .f32⟩
  | .hbm, ⟨19, _⟩ => ⟨S4096x1, .i32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S4096x1, .i32⟩
  | .hbm, ⟨27, _⟩ => ⟨S4096x1x1, .i32⟩
  | .hbm, ⟨28, _⟩ => ⟨S1, .i32⟩
  | .hbm, ⟨29, _⟩ => ⟨S_, .i32⟩
  | .hbm, ⟨30, _⟩ => ⟨S4096x1x1, .i32⟩
  | .hbm, ⟨31, _⟩ => ⟨S4096x1x1, .i1⟩
  | .hbm, ⟨32, _⟩ => ⟨S1x1x1, .i32⟩
  | .hbm, ⟨33, _⟩ => ⟨S4096x1x1, .i32⟩
  | .hbm, ⟨34, _⟩ => ⟨S4096x1x1, .i1⟩
  | .hbm, ⟨35, _⟩ => ⟨S4096x1x1, .i1⟩
  | .hbm, ⟨36, _⟩ => ⟨S_, .i1⟩
  | .hbm, ⟨37, _⟩ => ⟨S4096x1, .i1⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_cst : Ref sig .tc := ⟨.hbm, 44, rfl⟩
abbrev main_v6 : Ref sig .tc := ⟨.hbm, 45, rfl⟩
abbrev main_cst_0 : Ref sig .tc := ⟨.hbm, 46, rfl⟩
abbrev main_v7 : Ref sig .tc := ⟨.hbm, 47, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  dot_S4096x1024_S50257x1024_S4096x50257_1_1_0_0_n_n_wf : DotDims.WF S4096x1024 S50257x1024 S4096x50257 [1] [1] [0] [0] [] []
  gather_S4096x50257_S4096x1x1_S4096x1_n_1_0_0_1_2_11_wf : GatherDims.WF S4096x50257 S4096x1x1 S4096x1 [] [1] [0] [1] [0] 2 ![1, 1]

variable [Facts₀]

def dot_S4096x1024_S50257x1024_S4096x50257_1_1_0_0_n_n : DotDims S4096x1024 S50257x1024 S4096x50257 where
  lhsContracting := [1]
  rhsContracting := [1]
  lhsNonContracting := [0]
  rhsNonContracting := [0]
  lhsBatch := []
  rhsBatch := []
  wf := dot_S4096x1024_S50257x1024_S4096x50257_1_1_0_0_n_n_wf
def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.KRuns.lean ====
/-
  What the three runs of the kernel body are stated over.

  The grid is 4 row blocks by 50 column tiles, in row-major order: point t is row block t / 50 and tile t % 50.
  The body branches three times on the tile number alone: it resets the two running columns (the running maximum
  and the running sum of a row block) at tile 0, takes the plain update at the tiles below 49, and at tile 49 takes
  the masked update and writes the row block's log-sum-exp to the output block.  So a point is in one of three
  cases: A (tile 0: reset, then the plain update), B (tiles 1 to 48: the plain update), C (tile 49: the masked
  update and the output).  The output window is idle, and not written back, at the points of cases A and B.
-/
import proofs.«417856_j14267881357585_3_alg».proof.Proof.Gen.Kernel.Launch
import proofs.«417856_j14267881357585_3_alg».proof.Proof.Gen.Kernel.Skeleton
import proofs.«417856_j14267881357585_3_alg».proof.Proof.Gen.Kernel.Points
import proofs.«417856_j14267881357585_3_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

/-! ## The three conditions, decided over the grid -/

/-- The first condition (the tile number is 0), as the body computes it from the grid coordinates. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- The second condition (the tile number is below 49). -/
abbrev cond0_1 (i : grid0.Coords) : Prop :=
  (Scalar.cmpi .ne (Scalar.extui (Scalar.cmpi .slt (BitVec.ofNat 32 (i 1).val) 49#32)) 0#32) = 1#1
theorem hcond0_1 : ∀ t : Fin cfg0.N, cond0_1 (grid0.coords t) ↔ t.val % 50 ≠ 49 :=
  (by decide +kernel : ∀ t : Fin grid0.N, cond0_1 (grid0.coords t) ↔ t.val % 50 ≠ 49)

/-- The third condition (the tile number is 49). -/
abbrev cond0_2 (i : grid0.Coords) : Prop := k0_cond3 i = 1#1
theorem hcond0_2 : ∀ t : Fin cfg0.N, cond0_2 (grid0.coords t) ↔ t.val % 50 = 49 :=
  (by decide +kernel : ∀ t : Fin grid0.N, cond0_2 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from tile 49 the output window is idle and is not written back. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
/-- At tile 49 it is live. -/
theorem liveAt0_2 : ∀ t : Fin cfg0.N, cond0_2 (grid0.coords t) → cfg0.idle 2 (grid0.coords t) = false := by decide +kernel

/-! ## The memrefs the body is called with -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The two scratch columns: the running maximum and the running sum. -/
abbrev scM0_0 : Memref sig .tc .vmem S1024x1 .f32 := Memref.whole cc0_scratch0
abbrev scM0_1 : Memref sig .tc .vmem S1024x1 .f32 := Memref.whole cc0_scratch1
/-- Views through which the contents of the output block and of the two scratch columns are stated. -/
abbrev VO0_2 : View sig .tc .vmem S1024x1 .f32 := (Memref.whole cc0_stg2_0 : Memref sig .tc .vmem S1024x1 .f32).view
abbrev VS0_0 : View sig .tc .vmem S1024x1 .f32 := scM0_0.view
abbrev VS0_1 : View sig .tc .vmem S1024x1 .f32 := scM0_1.view

/-- The region's invariant with the two scratch columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.KRunA.lean ====
/-
  The body at tile 0 (case A). The two scratch columns are reset — the running maximum to the fill value, the running sum to zero — and the plain update then runs on them: the run ends with the two input blocks and the output block as they were and each scratch column overwritten twice, by the reset and by the update (the pieces, last first).
-/
import proofs.«417856_j14267881357585_3_alg».proof.Proof.KRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1024x1024 .bf16) (x1 : Vec F S1024x1024 .f32) :
    Σ' (LS0 : List (View.Piece (Elt F) S1024x1 .f32)), { LS1 : List (View.Piece (Elt F) S1024x1 .f32) //
      ∀ (y : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__loss_kernel i arg2 harg2 arg3 harg3 arg4 harg4 arg5 harg5 arg6 harg6) K } := by
  refine ⟨?_, ?_, fun y E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    iexists _; iexact H6

end Cert.Kernel.Body

end
-- ==== Proof.KRunB.lean ====
/-
  The body at tiles 1 to 48 (case B): the plain update on the two scratch columns as the tile before left them. The run ends with the two input blocks and the output block as they were and each scratch column overwritten once.
-/
import proofs.«417856_j14267881357585_3_alg».proof.Proof.KRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1024x1024 .bf16) (x1 : Vec F S1024x1024 .f32) (xs0 : Vec F S1024x1 .f32) (xs1 : Vec F S1024x1 .f32) :
    Σ' (LS0 : List (View.Piece (Elt F) S1024x1 .f32)), { LS1 : List (View.Piece (Elt F) S1024x1 .f32) //
      ∀ (y : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__loss_kernel i arg2 harg2 arg3 harg3 arg4 harg4 arg5 harg5 arg6 harg6) K } := by
  refine ⟨?_, ?_, fun y E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    iexists _; iexact H6

end Cert.Kernel.Body

end
-- ==== Proof.KRunC.lean ====
/-
  The body at tile 49 (case C): the masked update on the two scratch columns as the tile before left them, then the row block's log-sum-exp stored whole into the output block. The run ends with the two input blocks as they were, each scratch column overwritten once and the output block overwritten once.
-/
import proofs.«417856_j14267881357585_3_alg».proof.Proof.KRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1024x1024 .bf16) (x1 : Vec F S1024x1024 .f32) (xs0 : Vec F S1024x1 .f32) (xs1 : Vec F S1024x1 .f32) :
    Σ' (L2 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__loss_kernel i arg2 harg2 arg3 harg3 arg4 harg4 arg5 harg5 arg6 harg6) K } := by
  refine ⟨?_, ?_, ?_, fun E K => ?run⟩
  case run =>
    simp only [cc0__loss_kernel_eq_skeleton]; unfold cc0__loss_kernel_skel
    unfold owns
    iintro ⟨⟨%f0, %hf0, H0⟩, ⟨%f1, %hf1, H1⟩, ⟨%d2, %f2, -, H2⟩, ⟨%f5, %hf5, H5⟩, ⟨%f6, %hf6, H6⟩, Hk⟩
    obtain rfl := harg2.eq_unread hf0; obtain rfl := harg3.eq_unread hf1
    obtain rfl := harg5.eq_unread hf5; obtain rfl := harg6.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H5]; · iexists _; iexact H5
    iexists _; iexact H6

end Cert.Kernel.Body

end
-- ==== Proof.KFrame.lean ====
/-
  THE FRAME of the word-level program: every weakly fair execution of @main terminates, nothing faults, and the
  three argument arrays end unchanged.

  The weight array's last block overhangs the array, so the staging buffer it is fetched into holds, in its tail,
  words nothing names; what the body computes from the buffer cannot be written as a function of the arguments.
  A frame does not need it to be. The proof data are relational and say nothing of what the body leaves in any
  staging buffer: the body is handed each buffer at whatever it holds and hands each back at whatever it then
  holds. The weight array is an input window's array, so it is never written; the other two arguments are staged
  by no window and written by no host line after the region.
-/
import proofs.«417856_j14267881357585_3_alg».proof.Proof.KRunA
import proofs.«417856_j14267881357585_3_alg».proof.Proof.KRunB
import proofs.«417856_j14267881357585_3_alg».proof.Proof.KRunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one pipeline on core `c`, relational: each window's array as the region finds it; of
    what the body leaves in a staging buffer nothing is said; the invariant is the two scratch columns at some
    contents and the generator register at some state; nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdats m c).A w = V m c (Pipeline.arrRef spec0 w) := by
  dsimp only [rdats]

theorem share_eq (c : Dev nD) (w : Fin cfg0.W) : (rdats m c).share w = fullShare := by
  unfold RDat.share; split <;> rfl

/-- The buffers the host lines after the region write: each line's own result. -/
def T : Finset (Ref sig .tc) :=
  {main_c, main_v2, main_v3, main_c_0, main_v4, main_v5, main_v6, main_v7, main_v8, main_v9, main_cst, main_v10,
    main_v11, main_v12, main_cst_1, main_v13, main_cst_2, main_v14}

theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl
  all_goals
    intro b hb
    simp only [StableHlo.nullary_writes, StableHlo.unary_writes, StableHlo.binary_writes, StableHlo.ternary_writes, StableHlo.quaternary_writes, StableHlo.reshape_writes, StableHlo.binaryIndexed_writes, Finset.mem_singleton] at hb
    rw [Proc.devRef_injective _ hb]
    decide

/-! ## The body obligation, at a generic point -/

/-- What the body is called with at point `t`: the invariant, the core's tallies, and each window's current staging
    buffer at the contents handed over, -/
def bodyPre (c : Dev nD) (t : Fin cfg0.N) (Y : (w : Fin cfg0.W) → (cfg0.win w).block.Idx → Elt F (cfg0.win w).elt) : sProp 𝕄 :=
  iprop((rdats m c).Φ t.castSucc ∗ (rdats m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2))

/-- and what it returns: each buffer at some contents. -/
def bodyPost (c : Dev nD) (t : Fin cfg0.N) (Y : (w : Fin cfg0.W) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (ms0_0 t) fullShare X)
    ∗ (∃ X, ⌜(rdats m c).after 1 t (Y 1) X⌝ ∗ owns (c : Thread nD τ) (ms0_1 t) fullShare X)
    ∗ (∃ X, ⌜(rdats m c).after 2 t (Y 2) X⌝ ∗ owns (c : Thread nD τ) (ms0_2 t) fullShare X))

set_option maxHeartbeats 4000000 in
/-- The body at any point, whatever the staging buffers hold: the tile number says which of the three cases the
    point is in; that case's run applies, the invariant handing it the two scratch columns at what they hold; every
    buffer comes back at some contents, of which nothing is asked; the core owes nothing throughout. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdats m c).owesAt () t.succ = (rdats m c).owesAt () t.castSucc from rfl]
  rw [show (rdats m c).Φ t.succ = Pipeline.ΦA spec0 c from rfl, show (rdats m c).Φ t.castSucc = Pipeline.ΦA spec0 c from rfl, PhiA0_eq]
  have hN : t.val < 200 := lt_of_lt_of_eq t.isLt (show cfg0.N = 200 from N_0)
  by_cases h0 : t.val % 50 = 0
  · have hc0 : cond0_0 (grid0.coords t) := (hcond0_0 t).mpr h0
    have hc1 : cond0_1 (grid0.coords t) := (hcond0_1 t).mpr (by omega)
    have hc2 : ¬cond0_2 (grid0.coords t) := fun h => by have := (hcond0_2 t).mp h; omega
    iintro ⟨⟨⟨HS0, HS1⟩, Hg⟩, Ho, H0, H1, H2⟩
    iapply ((kernelRun0_A c (grid0.coords t) _ _ _ _ _ _ _ _ _ _ hc0 hc1 hc2 (Y 0) (Y 1)).2.2 (Y 2) Set.univ _)
    isplitl [H0]; · iexact H0
    isplitl [H1]; · iexact H1
    isplitl [H2]; · iexact H2
    isplitl [HS0]; · iexact HS0
    isplitl [HS1]; · iexact HS1
    iintro ⟨H0, H1, H2, ⟨%f5, HS0⟩, ⟨%f6, HS1⟩⟩
    isplitl [HS0 HS1 Hg]
    · isplitl [HS0 HS1]
      · isplitl [HS0]
        · iexists _; unfold owns; iexists _; isplitr
          swap; · iexact HS0
          ipureintro; rfl
        · iexists _; unfold owns; iexists _; isplitr
          swap; · iexact HS1
          ipureintro; rfl
      · iexact Hg
    isplitl [Ho]; · iexact Ho
    isplitl [H0]
    · iexists _; isplitr
      swap; · iexact H0
      ipureintro; exact True.intro
    isplitl [H1]
    · iexists _; isplitr
      swap; · iexact H1
      ipureintro; exact True.intro
    iexists _; isplitr
    swap; · iexact H2
    ipureintro; exact True.intro
  · by_cases h1 : t.val % 50 = 49
    · have hc0 : ¬cond0_0 (grid0.coords t) := fun h => h0 ((hcond0_0 t).mp h)
      have hc1 : ¬cond0_1 (grid0.coords t) := fun h => (hcond0_1 t).mp h h1
      have hc2 : cond0_2 (grid0.coords t) := (hcond0_2 t).mpr h1
      iintro ⟨⟨⟨⟨%xs0, HS0⟩, ⟨%xs1, HS1⟩⟩, Hg⟩, Ho, H0, H1, H2⟩
      iapply ((kernelRun0_C c (grid0.coords t) _ _ _ _ _ _ _ _ _ _ hc0 hc1 hc2 (Y 0) (Y 1) xs0 xs1).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%f4, H2⟩, ⟨%f5, HS0⟩, ⟨%f6, HS1⟩⟩
      isplitl [HS0 HS1 Hg]
      · isplitl [HS0 HS1]
        · isplitl [HS0]
          · iexists _; unfold owns; iexists _; isplitr
            swap; · iexact HS0
            ipureintro; rfl
          · iexists _; unfold owns; iexists _; isplitr
            swap; · iexact HS1
            ipureintro; rfl
        · iexact Hg
      isplitl [Ho]; · iexact Ho
      isplitl [H0]
      · iexists _; isplitr
        swap; · iexact H0
        ipureintro; exact True.intro
      isplitl [H1]
      · iexists _; isplitr
        swap; · iexact H1
        ipureintro; exact True.intro
      iexists _; isplitr
      swap
      · unfold owns; iexists _; isplitr
        swap; · iexact H2
        ipureintro; rfl
      ipureintro; exact True.intro
    · have hc0 : ¬cond0_0 (grid0.coords t) := fun h => h0 ((hcond0_0 t).mp h)
      have hc1 : cond0_1 (grid0.coords t) := (hcond0_1 t).mpr h1
      have hc2 : ¬cond0_2 (grid0.coords t) := fun h => h1 ((hcond0_2 t).mp h)
      iintro ⟨⟨⟨⟨%xs0, HS0⟩, ⟨%xs1, HS1⟩⟩, Hg⟩, Ho, H0, H1, H2⟩
      iapply ((kernelRun0_B c (grid0.coords t) _ _ _ _ _ _ _ _ _ _ hc0 hc1 hc2 (Y 0) (Y 1) xs0 xs1).2.2 (Y 2) Set.univ _)
      isplitl [H0]; · iexact H0
      isplitl [H1]; · iexact H1
      isplitl [H2]; · iexact H2
      isplitl [HS0]; · iexact HS0
      isplitl [HS1]; · iexact HS1
      iintro ⟨H0, H1, H2, ⟨%f5, HS0⟩, ⟨%f6, HS1⟩⟩
      isplitl [HS0 HS1 Hg]
      · isplitl [HS0 HS1]
        · isplitl [HS0]
          · iexists _; unfold owns; iexists _; isplitr
            swap; · iexact HS0
            ipureintro; rfl
          · iexists _; unfold owns; iexists _; isplitr
            swap; · iexact HS1
            ipureintro; rfl
        · iexact Hg
      isplitl [Ho]; · iexact Ho
      isplitl [H0]
      · iexists _; isplitr
        swap; · iexact H0
        ipureintro; exact True.intro
      isplitl [H1]
      · iexists _; isplitr
        swap; · iexact H1
        ipureintro; exact True.intro
      iexists _; isplitr
      swap; · iexact H2
      ipureintro; exact True.intro

/-- The library's body obligation of the relational data, at every point: nothing of what the buffers may hold is used. -/
theorem body_obligation (c : Dev nD) : (rdats m c).BodyObligation (defs₀ (F := F)) Variants.none () Set.univ := fun t Y _ => by
  rw [bigSep_W0, bigSep_W0]
  exact sound_body m c t Y

/-! ## The run and the frame -/

set_option backward.isDefEq.respectTransparency.types false in
/-- Every weakly fair execution of @main terminates, and every final state has each input window's array as the
    region found it and every buffer neither staged by the pipeline nor written by a later host line as the
    region found it. -/
theorem run_main : θ_run defs (onTc (τ := τ) (main (F := F))) (s₀ m ρ)
    (Pipeline.RDat.FramePostR cfg0 (rdats m) T (fun c b => V0 m c (Proc.devRef .tc b))) :=
  Pipeline.RDat.θ_run_frame_around_T cfgs (0 : Fin 1) launch0 defs₀ Variants.none (rdats m) T m ρ main
    (hbody := body_obligation m) (hshare := share_eq m)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- THE FRAME: every weakly fair execution of @main terminates, nothing faults, and the three argument arrays end
    as launched. The weight array is an input window's array, never written; the other two arguments are staged by
    no window and written by no host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((A_eq m c 1).trans (V_main_arg1 m c)),
      ((h c).2 main_arg2 (Finset.mem_sdiff.mpr ⟨Pipeline.mem_restRefs_of main_arg2 (by decide) (by decide), by decide⟩)).trans (V_main_arg2 m c)⟩)
    (run_main m ρ)

end Cert.Kernel.Body

end
-- ==== Proof.IRuns.lean ====
/-
  What the three runs of the kernel body are stated over.

  The grid is 4 row blocks by 50 column tiles, in row-major order: point t is row block t / 50 and tile t % 50.
  The body branches three times on the tile number alone: it resets the two running columns (the running maximum
  and the running sum of a row block) at tile 0, takes the plain update at the tiles below 49, and at tile 49 takes
  the masked update and writes the row block's log-sum-exp to the output block.  So a point is in one of three
  cases: A (tile 0: reset, then the plain update), B (tiles 1 to 48: the plain update), C (tile 49: the masked
  update and the output).  The output window is idle, and not written back, at the points of cases A and B.
-/
import proofs.«417856_j14267881357585_3_alg».proof.Proof.Gen.KernelIdeal.Launch
import proofs.«417856_j14267881357585_3_alg».proof.Proof.Gen.KernelIdeal.Skeleton
import proofs.«417856_j14267881357585_3_alg».proof.Proof.Gen.KernelIdeal.Points
import proofs.«417856_j14267881357585_3_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F] [Named F]

local notation "𝕄" => MT nD τ sig Unit (Elt F) ℕ (UR sig nD τ) ℕ

/-! ## The three conditions, decided over the grid -/

/-- The first condition (the tile number is 0), as the body computes it from the grid coordinates. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- The second condition (the tile number is below 49). -/
abbrev cond0_1 (i : grid0.Coords) : Prop :=
  (Scalar.cmpi .ne (Scalar.extui (Scalar.cmpi .slt (BitVec.ofNat 32 (i 1).val) 49#32)) 0#32) = 1#1
theorem hcond0_1 : ∀ t : Fin cfg0.N, cond0_1 (grid0.coords t) ↔ t.val % 50 ≠ 49 :=
  (by decide +kernel : ∀ t : Fin grid0.N, cond0_1 (grid0.coords t) ↔ t.val % 50 ≠ 49)

/-- The third condition (the tile number is 49). -/
abbrev cond0_2 (i : grid0.Coords) : Prop := k0_cond3 i = 1#1
theorem hcond0_2 : ∀ t : Fin cfg0.N, cond0_2 (grid0.coords t) ↔ t.val % 50 = 49 :=
  (by decide +kernel : ∀ t : Fin grid0.N, cond0_2 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from tile 49 the output window is idle and is not written back. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
/-- At tile 49 it is live. -/
theorem liveAt0_2 : ∀ t : Fin cfg0.N, cond0_2 (grid0.coords t) → cfg0.idle 2 (grid0.coords t) = false := by decide +kernel

/-! ## The memrefs the body is called with -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The two scratch columns: the running maximum and the running sum. -/
abbrev scM0_0 : Memref sig .tc .vmem S1024x1 .f32 := Memref.whole cc0_scratch0
abbrev scM0_1 : Memref sig .tc .vmem S1024x1 .f32 := Memref.whole cc0_scratch1
/-- Views through which the contents of the output block and of the two scratch columns are stated. -/
abbrev VO0_2 : View sig .tc .vmem S1024x1 .f32 := (Memref.whole cc0_stg2_0 : Memref sig .tc .vmem S1024x1 .f32).view
abbrev VS0_0 : View sig .tc .vmem S1024x1 .f32 := scM0_0.view
abbrev VS0_1 : View sig .tc .vmem S1024x1 .f32 := scM0_1.view

/-- The region's invariant with the two scratch columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.IRunA.lean ====
/-
  The body at tile 0 (case A). The two scratch columns are reset — the running maximum to the fill value, the running sum to zero — and the plain update then runs on them: the run ends with the two input blocks and the output block as they were and each scratch column overwritten twice, by the reset and by the update (the pieces, last first).
-/
import proofs.«417856_j14267881357585_3_alg».proof.Proof.IRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun0_A (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1024x1024 .bf16) (x1 : Vec F S1024x1024 .f32) :
    Σ' (LS0 : List (View.Piece (Elt F) S1024x1 .f32)), { LS1 : List (View.Piece (Elt F) S1024x1 .f32) //
      ∀ (y : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__loss_kernel i arg2 harg2 arg3 harg3 arg4 harg4 arg5 harg5 arg6 harg6) K } := by
  refine ⟨?_, ?_, fun y E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    iexists _; iexact H6

end Cert.KernelIdeal.Body

end
-- ==== Proof.IRunB.lean ====
/-
  The body at tiles 1 to 48 (case B): the plain update on the two scratch columns as the tile before left them. The run ends with the two input blocks and the output block as they were and each scratch column overwritten once.
-/
import proofs.«417856_j14267881357585_3_alg».proof.Proof.IRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun0_B (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1024x1024 .bf16) (x1 : Vec F S1024x1024 .f32) (xs0 : Vec F S1024x1 .f32) (xs1 : Vec F S1024x1 .f32) :
    Σ' (LS0 : List (View.Piece (Elt F) S1024x1 .f32)), { LS1 : List (View.Piece (Elt F) S1024x1 .f32) //
      ∀ (y : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__loss_kernel i arg2 harg2 arg3 harg3 arg4 harg4 arg5 harg5 arg6 harg6) K } := by
  refine ⟨?_, ?_, fun y E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    iexists _; iexact H6

end Cert.KernelIdeal.Body

end
-- ==== Proof.IRunC.lean ====
/-
  The body at tile 49 (case C): the masked update on the two scratch columns as the tile before left them, then the row block's log-sum-exp stored whole into the output block. The run ends with the two input blocks as they were, each scratch column overwritten once and the output block overwritten once.
-/
import proofs.«417856_j14267881357585_3_alg».proof.Proof.IRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun0_C (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1024x1024 .bf16) (x1 : Vec F S1024x1024 .f32) (xs0 : Vec F S1024x1 .f32) (xs1 : Vec F S1024x1 .f32) :
    Σ' (L2 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__loss_kernel i arg2 harg2 arg3 harg3 arg4 harg4 arg5 harg5 arg6 harg6) K } := by
  refine ⟨?_, ?_, ?_, fun E K => ?run⟩
  case run =>
    simp only [cc0__loss_kernel_eq_skeleton]; unfold cc0__loss_kernel_skel
    unfold owns
    iintro ⟨⟨%f0, %hf0, H0⟩, ⟨%f1, %hf1, H1⟩, ⟨%d2, %f2, -, H2⟩, ⟨%f5, %hf5, H5⟩, ⟨%f6, %hf6, H6⟩, Hk⟩
    obtain rfl := harg2.eq_unread hf0; obtain rfl := harg3.eq_unread hf1
    obtain rfl := harg5.eq_unread hf5; obtain rfl := harg6.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H5]; · iexists _; iexact H5
    iexists _; iexact H6

end Cert.KernelIdeal.Body

end
-- ==== Proof.IPieces.lean ====
/-
  What each case of the body leaves in the two scratch columns and in the output block, as the body's own
  arithmetic of what it loaded.

  Every store of the body writes a whole column, so what a buffer holds after the body is the payload of the last
  store into it; a load that follows a store in the same run reads that store's payload.  At tile 0 the update
  therefore runs on the reset values; at tile 49 the output is computed from the columns the masked update has
  just stored.
-/
import proofs.«417856_j14267881357585_3_alg».proof.Proof.IRunA
import proofs.«417856_j14267881357585_3_alg».proof.Proof.IRunB
import proofs.«417856_j14267881357585_3_alg».proof.Proof.IRunC
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F] [Named F]

theorem hz2 : (![0, 0] : Fin 2 → Nat) = fun _ => 0 := funext fun a => by fin_cases a <;> rfl

/-! ## Tile 0 -/

/-- At tile 0 the stores into the running-maximum column cover it. -/
theorem scoverA_0 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1024x1024 .bf16) (x1 : Vec F S1024x1024 .f32) (y : S1024x1.Idx) :
    ∃ pc ∈ (kernelRun0_A c i arg2 harg2 arg3 harg3 arg4 harg4 arg5 harg5 arg6 harg6 hc0 hc1 hc2 x0 x1).1, y ∈ pc.1.set :=
  View.cover_of_tiledL (kernelRun0_A c i arg2 harg2 arg3 harg3 arg4 harg4 arg5 harg5 arg6 harg6 hc0 hc1 hc2 x0 x1).1 S1024x1.size (by sl_kernel_rfl) y

/-- At tile 0 the stores into the running-sum column cover it. -/
theorem scoverA_1 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1024x1024 .bf16) (x1 : Vec F S1024x1024 .f32) (y : S1024x1.Idx) :
    ∃ pc ∈ (kernelRun0_A c i arg2 harg2 arg3 harg3 arg4 harg4 arg5 harg5 arg6 harg6 hc0 hc1 hc2 x0 x1).2.1, y ∈ pc.1.set :=
  View.cover_of_tiledL (kernelRun0_A c i arg2 harg2 arg3 harg3 arg4 harg4 arg5 harg5 arg6 harg6 hc0 hc1 hc2 x0 x1).2.1 S1024x1.size (by sl_kernel_rfl) y

/-- At tile 0 the running maximum ends at the update's value computed from the reset value. -/
theorem soutA_0 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1024x1024 .bf16) (x1 : Vec F S1024x1024 .f32) :
    View.canon (kernelRun0_A c i arg2 harg2 arg3 harg3 arg4 harg4 arg5 harg5 arg6 harg6 hc0 hc1 hc2 x0 x1).1 = k0_pay6 x1 x0 (k0_pay1 (F := F)) := by
  unfold kernelRun0_A
  dsimp only
  sl_unfold_words
  rw [View.canon_cons_unit_zero (S := S1024x1) hz2]
  simp only [View.readAt_eq_ld, harg2.read_unread, harg3.read_unread, harg5.read_unread, harg6.read_unread, View.ld_unit_zero (S := S1024x1024) hz2, View.ld_unit_zero (S := S1024x1) hz2, View.readCov_unit_zero (S := S1024x1) _ hz2]

/-- At tile 0 the running sum ends at the update's value computed from the two reset values. -/
theorem soutA_1 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1024x1024 .bf16) (x1 : Vec F S1024x1024 .f32) :
    View.canon (kernelRun0_A c i arg2 harg2 arg3 harg3 arg4 harg4 arg5 harg5 arg6 harg6 hc0 hc1 hc2 x0 x1).2.1 = k0_pay5 x1 x0 (k0_pay1 (F := F)) (k0_pay2 (F := F)) := by
  unfold kernelRun0_A
  dsimp only
  sl_unfold_words
  rw [View.canon_cons_unit_zero (S := S1024x1) hz2]
  simp only [View.readAt_eq_ld, harg2.read_unread, harg3.read_unread, harg5.read_unread, harg6.read_unread, View.ld_unit_zero (S := S1024x1024) hz2, View.ld_unit_zero (S := S1024x1) hz2, View.readCov_unit_zero (S := S1024x1) _ hz2]

/-! ## Tiles 1 to 48 -/

/-- At tiles 1 to 48 the store into the running-maximum column covers it. -/
theorem scoverB_0 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1024x1024 .bf16) (x1 : Vec F S1024x1024 .f32) (xs0 xs1 : Vec F S1024x1 .f32) (y : S1024x1.Idx) :
    ∃ pc ∈ (kernelRun0_B c i arg2 harg2 arg3 harg3 arg4 harg4 arg5 harg5 arg6 harg6 hc0 hc1 hc2 x0 x1 xs0 xs1).1, y ∈ pc.1.set :=
  View.cover_of_tiledL (kernelRun0_B c i arg2 harg2 arg3 harg3 arg4 harg4 arg5 harg5 arg6 harg6 hc0 hc1 hc2 x0 x1 xs0 xs1).1 S1024x1.size (by sl_kernel_rfl) y

/-- At tiles 1 to 48 the store into the running-sum column covers it. -/
theorem scoverB_1 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1024x1024 .bf16) (x1 : Vec F S1024x1024 .f32) (xs0 xs1 : Vec F S1024x1 .f32) (y : S1024x1.Idx) :
    ∃ pc ∈ (kernelRun0_B c i arg2 harg2 arg3 harg3 arg4 harg4 arg5 harg5 arg6 harg6 hc0 hc1 hc2 x0 x1 xs0 xs1).2.1, y ∈ pc.1.set :=
  View.cover_of_tiledL (kernelRun0_B c i arg2 harg2 arg3 harg3 arg4 harg4 arg5 harg5 arg6 harg6 hc0 hc1 hc2 x0 x1 xs0 xs1).2.1 S1024x1.size (by sl_kernel_rfl) y

/-- At tiles 1 to 48 the running maximum ends at the update's value. -/
theorem soutB_0 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1024x1024 .bf16) (x1 : Vec F S1024x1024 .f32) (xs0 xs1 : Vec F S1024x1 .f32) :
    View.canon (kernelRun0_B c i arg2 harg2 arg3 harg3 arg4 harg4 arg5 harg5 arg6 harg6 hc0 hc1 hc2 x0 x1 xs0 xs1).1 = k0_pay6 x1 x0 xs0 := by
  unfold kernelRun0_B
  dsimp only
  sl_unfold_words
  rw [View.canon_unit_zero hz2]
  simp only [View.readAt_eq_ld, harg2.read_unread, harg3.read_unread, harg5.read_unread, harg6.read_unread, View.ld_unit_zero (S := S1024x1024) hz2, View.ld_unit_zero (S := S1024x1) hz2, View.readCov_unit_zero (S := S1024x1) _ hz2]

/-- At tiles 1 to 48 the running sum ends at the update's value. -/
theorem soutB_1 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1024x1024 .bf16) (x1 : Vec F S1024x1024 .f32) (xs0 xs1 : Vec F S1024x1 .f32) :
    View.canon (kernelRun0_B c i arg2 harg2 arg3 harg3 arg4 harg4 arg5 harg5 arg6 harg6 hc0 hc1 hc2 x0 x1 xs0 xs1).2.1 = k0_pay5 x1 x0 xs0 xs1 := by
  unfold kernelRun0_B
  dsimp only
  sl_unfold_words
  rw [View.canon_unit_zero hz2]
  simp only [View.readAt_eq_ld, harg2.read_unread, harg3.read_unread, harg5.read_unread, harg6.read_unread, View.ld_unit_zero (S := S1024x1024) hz2, View.ld_unit_zero (S := S1024x1) hz2, View.readCov_unit_zero (S := S1024x1) _ hz2]

/-! ## Tile 49 -/

/-- At tile 49 the store into the output block covers it. -/
theorem coverC_2 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1024x1024 .bf16) (x1 : Vec F S1024x1024 .f32) (xs0 xs1 : Vec F S1024x1 .f32) (y : S1024x1.Idx) :
    ∃ pc ∈ (kernelRun0_C c i arg2 harg2 arg3 harg3 arg4 harg4 arg5 harg5 arg6 harg6 hc0 hc1 hc2 x0 x1 xs0 xs1).1, y ∈ pc.1.set :=
  View.cover_of_tiledL (kernelRun0_C c i arg2 harg2 arg3 harg3 arg4 harg4 arg5 harg5 arg6 harg6 hc0 hc1 hc2 x0 x1 xs0 xs1).1 S1024x1.size (by sl_kernel_rfl) y

/-- At tile 49 the store into the running-maximum column covers it. -/
theorem scoverC_0 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1024x1024 .bf16) (x1 : Vec F S1024x1024 .f32) (xs0 xs1 : Vec F S1024x1 .f32) (y : S1024x1.Idx) :
    ∃ pc ∈ (kernelRun0_C c i arg2 harg2 arg3 harg3 arg4 harg4 arg5 harg5 arg6 harg6 hc0 hc1 hc2 x0 x1 xs0 xs1).2.1, y ∈ pc.1.set :=
  View.cover_of_tiledL (kernelRun0_C c i arg2 harg2 arg3 harg3 arg4 harg4 arg5 harg5 arg6 harg6 hc0 hc1 hc2 x0 x1 xs0 xs1).2.1 S1024x1.size (by sl_kernel_rfl) y

/-- At tile 49 the store into the running-sum column covers it. -/
theorem scoverC_1 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1024x1024 .bf16) (x1 : Vec F S1024x1024 .f32) (xs0 xs1 : Vec F S1024x1 .f32) (y : S1024x1.Idx) :
    ∃ pc ∈ (kernelRun0_C c i arg2 harg2 arg3 harg3 arg4 harg4 arg5 harg5 arg6 harg6 hc0 hc1 hc2 x0 x1 xs0 xs1).2.2.1, y ∈ pc.1.set :=
  View.cover_of_tiledL (kernelRun0_C c i arg2 harg2 arg3 harg3 arg4 harg4 arg5 harg5 arg6 harg6 hc0 hc1 hc2 x0 x1 xs0 xs1).2.2.1 S1024x1.size (by sl_kernel_rfl) y

/-- At tile 49 the running maximum ends at the masked update's value. -/
theorem soutC_0 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1024x1024 .bf16) (x1 : Vec F S1024x1024 .f32) (xs0 xs1 : Vec F S1024x1 .f32) :
    View.canon (kernelRun0_C c i arg2 harg2 arg3 harg3 arg4 harg4 arg5 harg5 arg6 harg6 hc0 hc1 hc2 x0 x1 xs0 xs1).2.1 = k0_pay10 i x1 x0 xs0 := by
  unfold kernelRun0_C
  dsimp only
  sl_unfold_words
  rw [View.canon_unit_zero hz2]
  simp only [View.readAt_eq_ld, harg2.read_unread, harg3.read_unread, harg5.read_unread, harg6.read_unread, View.ld_unit_zero (S := S1024x1024) hz2, View.ld_unit_zero (S := S1024x1) hz2, View.readCov_unit_zero (S := S1024x1) _ hz2]

/-- At tile 49 the running sum ends at the masked update's value. -/
theorem soutC_1 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1024x1024 .bf16) (x1 : Vec F S1024x1024 .f32) (xs0 xs1 : Vec F S1024x1 .f32) :
    View.canon (kernelRun0_C c i arg2 harg2 arg3 harg3 arg4 harg4 arg5 harg5 arg6 harg6 hc0 hc1 hc2 x0 x1 xs0 xs1).2.2.1 = k0_pay9 i x1 x0 xs0 xs1 := by
  unfold kernelRun0_C
  dsimp only
  sl_unfold_words
  rw [View.canon_unit_zero hz2]
  simp only [View.readAt_eq_ld, harg2.read_unread, harg3.read_unread, harg5.read_unread, harg6.read_unread, View.ld_unit_zero (S := S1024x1024) hz2, View.ld_unit_zero (S := S1024x1) hz2, View.readCov_unit_zero (S := S1024x1) _ hz2]

/-- At tile 49 the output block ends at the new running maximum plus the logarithm of the new running sum. -/
theorem outC_2 (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1024x1024 .bf16) (x1 : Vec F S1024x1024 .f32) (xs0 xs1 : Vec F S1024x1 .f32) :
    View.canon (kernelRun0_C c i arg2 harg2 arg3 harg3 arg4 harg4 arg5 harg5 arg6 harg6 hc0 hc1 hc2 x0 x1 xs0 xs1).1 = k0_pay11 (k0_pay10 i x1 x0 xs0) (k0_pay9 i x1 x0 xs0 xs1) := by
  unfold kernelRun0_C
  dsimp only
  sl_unfold_words
  rw [View.canon_unit_zero hz2]
  simp only [View.readAt_eq_ld, harg2.read_unread, harg3.read_unread, harg5.read_unread, harg6.read_unread, View.ld_unit_zero (S := S1024x1024) hz2, View.ld_unit_zero (S := S1024x1) hz2, View.readCov_unit_zero (S := S1024x1) _ hz2]

end Cert.KernelIdeal.Body

end
-- ==== Proof.Spec.lean ====
/-
  The loss both programs compute, as one function of the argument arrays over the extended reals.

  For a row n of x and a vocabulary entry v the logit is the inner product of x's row n with weight's row v.
  A row's log-sum-exp is written in the shifted form: the maximum of the row's logits plus the logarithm of
  the sum of the exponentials of the logits less that maximum.  A row's loss is its log-sum-exp less the
  logit at the row's label; the result is the mean of the 4096 row losses, taken as a sum from zero divided
  by 4096, the two constants kept as the words both programs carry.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![4096, 1024]⟩
abbrev SW : Shape := ⟨2, ![50257, 1024]⟩
abbrev ST : Shape := ⟨1, ![4096]⟩
abbrev S0 : Shape := ⟨0, ![]⟩

/-- The logit of row `n` against vocabulary entry `v`: the inner product over the 1024 features. -/
def logit (x : SX.Idx → EReal) (w : SW.Idx → EReal) (n : Fin 4096) (v : Fin 50257) : EReal :=
  ∑ d : Fin 1024, x (ix2 n d) * w (ix2 v d)

/-- The largest of a row's 50257 logits, as a fold of `max` from `⊥`. -/
def rowMax (a : Fin 50257 → EReal) : EReal := (Finset.univ : Finset (Fin 50257)).fold max ⊥ a

/-- The sum of the exponentials of a row's logits, each less the row's maximum. -/
def rowSum (a : Fin 50257 → EReal) : EReal := ∑ v : Fin 50257, Ideal.exp (a v - rowMax a)

/-- A row's log-sum-exp, in the shifted form. -/
def lse (a : Fin 50257 → EReal) : EReal := rowMax a + Ideal.log (rowSum a)

/-- Row `n`'s label, read as a natural number. -/
def label (t : ST.Idx → BitVec 32) (n : Fin 4096) : ℕ := (t (ix1 n)).toNat

/-- The logit at the row's label (zero for a label outside the vocabulary, which the precondition excludes). -/
def tlogit (x : SX.Idx → EReal) (w : SW.Idx → EReal) (t : ST.Idx → BitVec 32) (n : Fin 4096) : EReal :=
  if h : label t n < 50257 then logit x w n ⟨label t n, h⟩ else 0

/-- Row `n`'s loss. -/
def rowLoss (x : SX.Idx → EReal) (w : SW.Idx → EReal) (t : ST.Idx → BitVec 32) (n : Fin 4096) : EReal :=
  lse (logit x w n) - tlogit x w t n

/-- The mean of 4096 numbers as both programs take it: the sum from the zero word, divided by the word of 4096. -/
def mean (h : ST.ReducesTo [0] S0) (h0 : 0 < S0.numel) (r : ST.Idx → EReal) : S0.Idx → EReal :=
  Host.divf (F := Ideal) (Host.reduceAdd (F := Ideal) (φ := .f32) r (constant (F := Ideal) S0 .f32 0x00000000#32) h h0)
    (constant (F := Ideal) S0 .f32 0x45800000#32)

/-- The loss. -/
def loss (h : ST.ReducesTo [0] S0) (h0 : 0 < S0.numel) (x : SX.Idx → EReal) (w : SW.Idx → EReal) (t : ST.Idx → BitVec 32) :
    S0.Idx → EReal :=
  mean h h0 (fun i => rowLoss x w t (i 0))

end Cert.Spec

end
-- ==== Proof.Online.lean ====
/-
  The running form of a row's log-sum-exp.

  The row's 50257 logits are met in 50 tiles of 1024 columns; the last tile has 81 columns of the row and 943
  columns past its end, which read `⊥`.  The state is a pair (m, l), from (⊥, 0): a tile with entries s takes it
  to m' = max m (max of s) and l' = exp (m - m') * l + sum of exp (s q - m').  After the 50 tiles m + log l is the
  row's log-sum-exp: while every logit is a real number, m is the largest logit met so far and l the sum of
  exp (logit - m) over the logits met so far (exp ⊥ = 0 drops the columns past the end, and exp (⊥ - m') * 0 = 0
  starts the sum), and rescaling by exp (m - m') moves the sum from one maximum to the next.
-/
import proofs.«417856_j14267881357585_3_alg».proof.Proof.Spec

noncomputable section

namespace Cert.Online

open Idealize.ShloMosaic Cert.Spec

/-- The new running maximum after a tile with entries `s`. -/
def stepM (m : EReal) (s : Fin 1024 → EReal) : EReal := max m ((Finset.univ : Finset (Fin 1024)).fold max ⊥ s)

/-- The new running sum after a tile with entries `s`. -/
def stepL (m l : EReal) (s : Fin 1024 → EReal) : EReal :=
  Ideal.exp (m - stepM m s) * l + ∑ q : Fin 1024, Ideal.exp (s q - stepM m s)

/-- The state after the first `k` tiles. -/
def state (s : ℕ → Fin 1024 → EReal) : ℕ → EReal × EReal
  | 0 => (⊥, 0)
  | k + 1 => (stepM (state s k).1 (s k), stepL (state s k).1 (state s k).2 (s k))

/-- A row's logits laid out in tiles of 1024 columns, `⊥` past the row's end. -/
def tiles (a : Fin 50257 → EReal) : ℕ → Fin 1024 → EReal :=
  fun k q => if h : k * 1024 + q.val < 50257 then a ⟨k * 1024 + q.val, h⟩ else ⊥

/-- The coercion of a finite sum of real numbers is the sum of the coercions. -/
theorem coe_finsum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- A fold of `max` from `⊥` is the supremum. -/
theorem fold_max_eq_sup {ι : Type*} (s : Finset ι) (f : ι → EReal) : s.fold max ⊥ f = s.sup f := rfl

/-- A supremum of entries none of which is `⊤` and one of which is not `⊥` is a real number. -/
theorem sup_real {ι : Type*} (s : Finset ι) (f : ι → EReal) (i : ι) (hi : i ∈ s) (hib : f i ≠ ⊥)
    (hf : ∀ j ∈ s, f j ≠ ⊤) : ∃ M : ℝ, s.sup f = (M : EReal) := by
  have h1 : f i ≤ s.sup f := Finset.le_sup hi
  have h2 : s.sup f < ⊤ := (Finset.sup_lt_iff bot_lt_top).2 (fun j hj => lt_top_iff_ne_top.2 (hf j hj))
  have h3 : ⊥ < s.sup f := lt_of_lt_of_le (bot_lt_iff_ne_bot.2 hib) h1
  exact ⟨(s.sup f).toReal, (EReal.coe_toReal h2.ne h3.ne').symm⟩

/-- The row read at a natural-number column, `⊥` past the row's end. -/
def pad (a : Fin 50257 → EReal) (n : ℕ) : EReal := if h : n < 50257 then a ⟨n, h⟩ else ⊥

theorem tiles_eq_pad (a : Fin 50257 → EReal) (k : ℕ) (q : Fin 1024) : tiles a k q = pad a (k * 1024 + q.val) := rfl

theorem pad_val (a : Fin 50257 → EReal) (v : Fin 50257) : pad a v.val = a v := by
  unfold pad; rw [dif_pos v.isLt]

theorem pad_ne_top (a : Fin 50257 → EReal) (ha : ∀ v, ∃ r : ℝ, a v = (r : EReal)) (n : ℕ) : pad a n ≠ ⊤ := by
  unfold pad
  split
  · rename_i h
    obtain ⟨r, hr⟩ := ha ⟨n, h⟩
    rw [hr]; exact EReal.coe_ne_top r
  · exact bot_ne_top

theorem pad_zero_ne_bot (a : Fin 50257 → EReal) (ha : ∀ v, ∃ r : ℝ, a v = (r : EReal)) : pad a 0 ≠ ⊥ := by
  obtain ⟨r, hr⟩ := ha ⟨0, by norm_num⟩
  have : pad a 0 = a ⟨0, by norm_num⟩ := dif_pos (by norm_num)
  rw [this, hr]; exact EReal.coe_ne_bot r

/-- The supremum of the padded row over a nonempty initial segment is a real number. -/
theorem sup_pad_real (a : Fin 50257 → EReal) (ha : ∀ v, ∃ r : ℝ, a v = (r : EReal)) (N : ℕ) (hN : 0 < N) :
    ∃ M : ℝ, (Finset.range N).sup (pad a) = (M : EReal) :=
  sup_real _ _ 0 (Finset.mem_range.2 hN) (pad_zero_ne_bot a ha) (fun j _ => pad_ne_top a ha j)

/-- The exponential of an entry less a real shift, as a real number (zero at `⊥`). -/
def expShift (x : EReal) (M : ℝ) : ℝ := (Ideal.exp (x - (M : EReal))).toReal

theorem exp_shift_coe (x : EReal) (hx : x ≠ ⊤) (M : ℝ) : Ideal.exp (x - (M : EReal)) = (expShift x M : EReal) := by
  unfold expShift
  induction x with
  | bot => rw [EReal.bot_sub, Ideal.exp_bot, EReal.toReal_zero, EReal.coe_zero]
  | coe r => rw [← EReal.coe_sub, Ideal.exp_coe, EReal.toReal_coe]
  | top => exact absurd rfl hx

/-- Moving the shift from `M` to `M'` multiplies by `exp (M - M')`. -/
theorem expShift_rescale (x : EReal) (hx : x ≠ ⊤) (M M' : ℝ) :
    expShift x M' = Real.exp (M - M') * expShift x M := by
  unfold expShift
  induction x with
  | bot => rw [EReal.bot_sub, EReal.bot_sub, Ideal.exp_bot, EReal.toReal_zero, mul_zero]
  | coe r =>
    rw [← EReal.coe_sub, ← EReal.coe_sub, Ideal.exp_coe, Ideal.exp_coe, EReal.toReal_coe, EReal.toReal_coe,
      ← Real.exp_add]
    congr 1; ring
  | top => exact absurd rfl hx

/-- Rescaling a running sum from one real maximum to the next. -/
theorem rescale (a : Fin 50257 → EReal) (ha : ∀ v, ∃ r : ℝ, a v = (r : EReal)) (T : Finset ℕ) (M M' : ℝ) :
    Ideal.exp ((M : EReal) - (M' : EReal)) * ∑ n ∈ T, Ideal.exp (pad a n - (M : EReal)) =
      ∑ n ∈ T, Ideal.exp (pad a n - (M' : EReal)) := by
  have e1 : ∀ n ∈ T, Ideal.exp (pad a n - (M : EReal)) = (expShift (pad a n) M : EReal) :=
    fun n _ => exp_shift_coe _ (pad_ne_top a ha n) M
  have e2 : ∀ n ∈ T, Ideal.exp (pad a n - (M' : EReal)) = (expShift (pad a n) M' : EReal) :=
    fun n _ => exp_shift_coe _ (pad_ne_top a ha n) M'
  rw [Finset.sum_congr rfl e1, Finset.sum_congr rfl e2, ← coe_finsum, ← coe_finsum, ← EReal.coe_sub, Ideal.exp_coe,
    ← EReal.coe_mul, Finset.mul_sum]
  congr 1
  exact Finset.sum_congr rfl (fun n _ => (expShift_rescale _ (pad_ne_top a ha n) M M').symm)

/-- The running maximum after a tile is the supremum over the longer initial segment. -/
theorem sup_step (a : Fin 50257 → EReal) (k : ℕ) :
    stepM ((Finset.range (k * 1024)).sup (pad a)) (tiles a k) = (Finset.range ((k + 1) * 1024)).sup (pad a) := by
  unfold stepM
  rw [fold_max_eq_sup]
  apply le_antisymm
  · apply max_le
    · exact Finset.sup_mono (Finset.range_mono (by omega))
    · apply Finset.sup_le
      intro q _
      rw [tiles_eq_pad]
      exact Finset.le_sup (Finset.mem_range.2 (by have := q.isLt; omega))
  · apply Finset.sup_le
    intro n hn
    have hn' := Finset.mem_range.1 hn
    rcases lt_or_ge n (k * 1024) with h | h
    · exact le_max_of_le_left (Finset.le_sup (Finset.mem_range.2 h))
    · apply le_max_of_le_right
      have hq : n - k * 1024 < 1024 := by omega
      have e : pad a n = tiles a k ⟨n - k * 1024, hq⟩ := by
        rw [tiles_eq_pad]; congr 1; simp only; omega
      rw [e]
      exact Finset.le_sup (Finset.mem_univ _)

/-- The invariant: after `k` tiles the running pair is the supremum of the padded row over the first `k * 1024`
    columns and the sum of the exponentials of those columns less that supremum. -/
theorem state_inv (a : Fin 50257 → EReal) (ha : ∀ v, ∃ r : ℝ, a v = (r : EReal)) (k : ℕ) :
    (state (tiles a) k).1 = (Finset.range (k * 1024)).sup (pad a) ∧
    (state (tiles a) k).2 =
      ∑ n ∈ Finset.range (k * 1024), Ideal.exp (pad a n - (Finset.range (k * 1024)).sup (pad a)) := by
  induction k with
  | zero => simp [state]
  | succ k ih =>
    obtain ⟨h1, h2⟩ := ih
    have hM : stepM (state (tiles a) k).1 (tiles a k) = (Finset.range ((k + 1) * 1024)).sup (pad a) := by
      rw [h1]; exact sup_step a k
    refine ⟨hM, ?_⟩
    show stepL (state (tiles a) k).1 (state (tiles a) k).2 (tiles a k) = _
    unfold stepL
    rw [hM, h2, h1, Nat.succ_mul, Finset.sum_range_add, Finset.sum_range (fun x => Ideal.exp (pad a (k * 1024 + x) - _))]
    congr 1
    rcases Nat.eq_zero_or_pos k with hk | hk
    · subst hk; simp
    · obtain ⟨M, hMr⟩ := sup_pad_real a ha (k * 1024) (by omega)
      obtain ⟨M', hMr'⟩ := sup_pad_real a ha (k * 1024 + 1024) (by omega)
      rw [hMr, hMr']
      exact rescale a ha _ M M'

/-- The row's maximum is the supremum of the padded row over the 50 tiles' columns. -/
theorem rowMax_eq_sup_pad (a : Fin 50257 → EReal) : rowMax a = (Finset.range (50 * 1024)).sup (pad a) := by
  unfold rowMax
  rw [fold_max_eq_sup]
  apply le_antisymm
  · apply Finset.sup_le
    intro v _
    rw [← pad_val a v]
    exact Finset.le_sup (Finset.mem_range.2 (by have := v.isLt; omega))
  · apply Finset.sup_le
    intro n _
    unfold pad
    split
    · exact Finset.le_sup (Finset.mem_univ _)
    · exact bot_le

/-- The shifted sum over the 50 tiles' columns of the padded row is the shifted sum over the row. -/
theorem sum_pad (a : Fin 50257 → EReal) (m : EReal) :
    ∑ n ∈ Finset.range (50 * 1024), Ideal.exp (pad a n - m) = ∑ v : Fin 50257, Ideal.exp (a v - m) := by
  have e : 50 * 1024 = 50257 + 943 := by norm_num
  rw [e, Finset.sum_range_add, Finset.sum_range (fun n => Ideal.exp (pad a n - m))]
  have z : ∑ x ∈ Finset.range 943, Ideal.exp (pad a (50257 + x) - m) = 0 := by
    apply Finset.sum_eq_zero
    intro i _
    have : pad a (50257 + i) = ⊥ := dif_neg (by omega)
    rw [this, EReal.bot_sub, Ideal.exp_bot]
  rw [z, add_zero]
  exact Finset.sum_congr rfl (fun v _ => by rw [pad_val])

/-- The maximum of real logits is a real number. -/
theorem rowMax_real (a : Fin 50257 → EReal) (ha : ∀ v, ∃ r : ℝ, a v = (r : EReal)) : ∃ r : ℝ, rowMax a = (r : EReal) := by
  rw [rowMax_eq_sup_pad]
  exact sup_pad_real a ha _ (by norm_num)

/-- The shifted sum of real logits is a positive real number. -/
theorem rowSum_real_pos (a : Fin 50257 → EReal) (ha : ∀ v, ∃ r : ℝ, a v = (r : EReal)) :
    ∃ r : ℝ, 0 < r ∧ rowSum a = (r : EReal) := by
  obtain ⟨M, hM⟩ := rowMax_real a ha
  choose r hr using ha
  refine ⟨∑ v : Fin 50257, Real.exp (r v - M), ?_, ?_⟩
  · exact Finset.sum_pos (fun v _ => Real.exp_pos _) ⟨⟨0, by norm_num⟩, Finset.mem_univ _⟩
  · unfold rowSum
    rw [hM, coe_finsum]
    exact Finset.sum_congr rfl (fun v _ => by rw [hr v, ← EReal.coe_sub, Ideal.exp_coe])

/-- The log-sum-exp of real logits is a real number. -/
theorem lse_real (a : Fin 50257 → EReal) (ha : ∀ v, ∃ r : ℝ, a v = (r : EReal)) : ∃ r : ℝ, lse a = (r : EReal) := by
  obtain ⟨M, hM⟩ := rowMax_real a ha
  obtain ⟨S, hS, hSe⟩ := rowSum_real_pos a ha
  refine ⟨M + Real.log S, ?_⟩
  unfold lse
  rw [hM, hSe, Ideal.log_coe, if_neg (not_le.2 hS), EReal.coe_add]

/-- After the 50 tiles the running pair gives the row's log-sum-exp. -/
theorem state_lse (a : Fin 50257 → EReal) (ha : ∀ v, ∃ r : ℝ, a v = (r : EReal)) :
    (state (tiles a) 50).1 + Ideal.log (state (tiles a) 50).2 = lse a := by
  obtain ⟨h1, h2⟩ := state_inv a ha 50
  rw [h2, h1, sum_pad, ← rowMax_eq_sup_pad]
  rfl

/-- The reference's arrangement of a row's loss — the negated difference of the shifted logit at the label and the
    logarithm of the shifted sum — is the log-sum-exp less that logit, while the logits are real numbers. -/
theorem neg_shifted_eq (a : Fin 50257 → EReal) (ha : ∀ v, ∃ r : ℝ, a v = (r : EReal)) (v : Fin 50257) :
    -((a v - rowMax a) - Ideal.log (rowSum a)) = lse a - a v := by
  obtain ⟨M, hM⟩ := rowMax_real a ha
  obtain ⟨S, hS, hSe⟩ := rowSum_real_pos a ha
  obtain ⟨r, hr⟩ := ha v
  unfold lse
  rw [hM, hSe, hr, Ideal.log_coe, if_neg (not_le.2 hS), ← EReal.coe_sub, ← EReal.coe_sub, ← EReal.coe_neg,
    ← EReal.coe_add, ← EReal.coe_sub]
  exact congrArg _ (by ring)

/-- A logit of finite inputs is a real number. -/
theorem logit_real (x : SX.Idx → EReal) (w : SW.Idx → EReal) (hx : ∀ i, ∃ r : ℝ, x i = (r : EReal))
    (hw : ∀ i, ∃ r : ℝ, w i = (r : EReal)) (n : Fin 4096) (v : Fin 50257) : ∃ r : ℝ, logit x w n v = (r : EReal) := by
  choose rx hrx using hx
  choose rw' hrw using hw
  refine ⟨∑ d : Fin 1024, rx (ValueIdx.ix2 n d) * rw' (ValueIdx.ix2 v d), ?_⟩
  unfold logit
  rw [coe_finsum]
  exact Finset.sum_congr rfl (fun d _ => by rw [hrx, hrw, EReal.coe_mul])

end Cert.Online

end
-- ==== Proof.IPay.lean ====
/-
  The body's arithmetic at the ideal instance, read at an index.

  x0 is the block of x the body loads (1024 rows of the row block by the 1024 features), x1 the block of weight (1024
  vocabulary entries of the tile by the 1024 features).  The tile's scores are the inner products of x0's row p with
  x1's row q.  With the scores in hand the plain update of the running maximum and of the running sum of row p is the
  running log-sum-exp step on them; the masked update at tile 49 is the same step on the scores with the columns past
  the vocabulary's end replaced by the fill value, which the idealization reads as `⊥`; and the output is the running
  maximum plus the logarithm of the running sum.
-/
import proofs.«417856_j14267881357585_3_alg».proof.Proof.Gen.KernelIdeal.Skeleton
import proofs.«417856_j14267881357585_3_alg».proof.Proof.Online
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Online

/-- The tile's scores for row `p` of the row block: the inner product with each of the tile's 1024 vocabulary rows. -/
def sc (x0 : Vec Ideal S1024x1024 .bf16) (x1 : Vec Ideal S1024x1024 .f32) (p : Fin 1024) : Fin 1024 → EReal :=
  fun q => ∑ k : Fin 1024, x0 (ix2 p k) * x1 (ix2 q k)

/-- The scores of tile 49 with the columns past the vocabulary's end (column 49·1024 + q ≥ 50257) at `⊥`. -/
def scMasked (x0 : Vec Ideal S1024x1024 .bf16) (x1 : Vec Ideal S1024x1024 .f32) (p : Fin 1024) : Fin 1024 → EReal :=
  fun q => if 49 * 1024 + q.val < 50257 then sc x0 x1 p q else ⊥

/-- The fill value's name denotes `⊥`. -/
theorem neg_big_bot : Named.named (F := Ideal) κ "neg_big" (φ := .f32) 0xFF333332#32 = (⊥ : EReal) :=
  IdealRules.named_const.ideal_named_scalar _ _ _ _ rfl

/-- The word of negative infinity reads `⊥`. -/
theorem ofBits_neg_inf : Ideal.ofBits .f32 0xFF800000#32 = (⊥ : EReal) := by simp [Ideal.ofBits, Ideal.ieee]

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `p` with lane coordinate `k` is `(p, k)`. -/
theorem lift_row (p k : Fin 1024) : reduces_S1024x1024_S1024.lift (ix1 p) k = ix2 p k :=
  funext fun a => Fin.ext (by
    match a with
    | ⟨0, _⟩ => rfl
    | ⟨1, _⟩ => rfl)

/-- The lane maximum of row `p`: the fold of `max` from `⊥` over the row's entries. -/
theorem laneMax_apply (src : FVec Ideal S1024x1024 .f32) (p : Fin 1024) :
    multiReduction (F := Ideal) .maximumf [1] S1024 src 0xFF800000#32 reduces_S1024x1024_S1024 (.inl rfl) rfl (ix1 p)
      = (Finset.univ : Finset (Fin 1024)).fold max ⊥ (fun q => src (ix2 p q)) := by
  refine (Ideal.multiReduction_maximumf_single src 0xFF800000#32 reduces_S1024x1024_S1024 (.inl rfl) rfl (ix1 p)).trans ?_
  show (Finset.univ : Finset (Fin 1024)).fold max (Ideal.ofBits .f32 0xFF800000#32)
    (fun k => src (reduces_S1024x1024_S1024.lift (ix1 p) k)) = _
  rw [ofBits_neg_inf]
  congr 1
  funext k
  exact congrArg src (lift_row p k)

/-- The lane sum of row `p`. -/
theorem laneSum_apply (src : FVec Ideal S1024x1024 .f32) (p : Fin 1024) :
    multiReduction (F := Ideal) .add [1] S1024 src 0x00000000#32 reduces_S1024x1024_S1024 (.inl rfl) rfl (ix1 p)
      = ∑ q : Fin 1024, src (ix2 p q) := by
  refine (Ideal.multiReduction_add_single src 0x00000000#32 reduces_S1024x1024_S1024 (.inl rfl) rfl (ix1 p)).trans ?_
  show ∑ k : Fin 1024, src (reduces_S1024x1024_S1024.lift (ix1 p) k) = _
  exact Finset.sum_congr rfl (fun k _ => by rw [lift_row])

theorem lhs_ax0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_ax1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_ax0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_ax1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The matrix product into the zero accumulator, read at `(p, q)`: the inner product of the left operand's row `p`
    with the right operand's row `q`. -/
theorem matmul_rows_apply (l : FVec Ideal S1024x1024 .bf16) (r : FVec Ideal S1024x1024 .bf16) (p q : Fin 1024) :
    matmul (F := Ideal) dot_S1024x1024_S1024x1024_S1024x1024_1_1_0_0_n_n none l r (constant (F := Ideal) S1024x1024 .f32 0x00000000#32) (ix2 p q)
      = ∑ k : Fin 1024, l (ix2 p k) * r (ix2 q k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_ax0 _ _
    | ⟨1, _⟩ => exact (lhs_ax1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_ax0 _ _
    | ⟨1, _⟩ => exact (rhs_ax1 _ _).trans hk)
  rw [el, er]

/-- The reset value of the running maximum is `⊥`: the fill value's name. -/
theorem pay1_apply (j : S1024x1.Idx) : k0_pay1 (F := Ideal) j = ⊥ := by
  unfold k0_pay1
  rw [shapeCast_self, broadcast_apply]
  exact neg_big_bot

/-- The reset value of the running sum is zero. -/
theorem pay2_apply (j : S1024x1.Idx) : k0_pay2 (F := Ideal) j = 0 := by
  unfold k0_pay2
  rw [shapeCast_self, broadcast_apply]
  exact Ideal.ofBits_zero_f32

/-- The matrix product at (p, q) is the score of row p against the tile's row q. -/
theorem pay3_apply (x0 : Vec Ideal S1024x1024 .bf16) (x1 : Vec Ideal S1024x1024 .f32) (p q : Fin 1024) :
    k0_pay3 (F := Ideal) x1 x0 (ix2 p q) = sc x0 x1 p q := by
  unfold k0_pay3 sc
  rw [shapeCast_self]
  exact matmul_rows_apply x0 (truncf .bf16 x1 bitsLt_bf16_f32) p q

/-- The plain update's running maximum at row p, before the last cast. -/
theorem pay4_apply (x0 : Vec Ideal S1024x1024 .bf16) (x1 : Vec Ideal S1024x1024 .f32) (xs0 : Vec Ideal S1024x1 .f32)
    (p : Fin 1024) :
    k0_pay4 (F := Ideal) x1 x0 xs0 (ix2 p (0 : Fin 1)) = stepM (xs0 (ix2 p (0 : Fin 1))) (sc x0 x1 p) := by
  unfold k0_pay4 stepM
  rw [maximumf_apply]
  refine congrArg (max _) ?_
  refine (shapeCast_a_a1_apply _ _ p 0).trans ?_
  refine (laneMax_apply _ p).trans ?_
  exact congrArg (fun f => (Finset.univ : Finset (Fin 1024)).fold max ⊥ f) (funext fun q => pay3_apply x0 x1 p q)

/-- The plain update's new running maximum at row p. -/
theorem pay6_apply (x0 : Vec Ideal S1024x1024 .bf16) (x1 : Vec Ideal S1024x1024 .f32) (xs0 : Vec Ideal S1024x1 .f32)
    (p : Fin 1024) :
    k0_pay6 (F := Ideal) x1 x0 xs0 (ix2 p (0 : Fin 1)) = stepM (xs0 (ix2 p (0 : Fin 1))) (sc x0 x1 p) := by
  unfold k0_pay6
  rw [shapeCast_self]
  exact pay4_apply x0 x1 xs0 p

/-- The plain update's new running sum at row p. -/
theorem pay5_apply (x0 : Vec Ideal S1024x1024 .bf16) (x1 : Vec Ideal S1024x1024 .f32) (xs0 xs1 : Vec Ideal S1024x1 .f32)
    (p : Fin 1024) :
    k0_pay5 (F := Ideal) x1 x0 xs0 xs1 (ix2 p (0 : Fin 1))
      = stepL (xs0 (ix2 p (0 : Fin 1))) (xs1 (ix2 p (0 : Fin 1))) (sc x0 x1 p) := by
  unfold k0_pay5 stepL
  rw [shapeCast_self, addf_apply, mulf_apply]
  refine congrArg₂ (· + ·) ?_ ?_
  · show Ideal.exp (xs0 (ix2 p (0 : Fin 1)) - k0_pay4 (F := Ideal) x1 x0 xs0 (ix2 p (0 : Fin 1))) * _ = _
    rw [pay4_apply]
  · refine (shapeCast_a_a1_apply _ _ p 0).trans ?_
    refine (laneSum_apply _ p).trans ?_
    refine Finset.sum_congr rfl fun q _ => ?_
    show Ideal.exp (k0_pay3 (F := Ideal) x1 x0 (ix2 p q)
      - broadcastTo S1024x1024 (k0_pay4 (F := Ideal) x1 x0 xs0) broadcasts_S1024x1_S1024x1024 (ix2 p q)) = _
    rw [pay3_apply, broadcastTo_a1_ab_apply, pay4_apply]

/-- At tile 49 the mask's bit at column q says whether column 49·1024 + q is inside the vocabulary: no overflow, since
    q is below 1024. -/
theorem mask_bit (q : Fin 1024) :
    IntOp.cmpi .slt (IntOp.addi (BitVec.ofNat 32 q.val) (Scalar.muli (BitVec.ofNat 32 49) 1024#32)) 50257#32
      = if 49 * 1024 + q.val < 50257 then 1#1 else 0#1 := by
  have hq := q.isLt
  have hm : Scalar.muli (BitVec.ofNat 32 49) 1024#32 = 50176#32 := by decide
  rw [hm]
  unfold IntOp.cmpi IntOp.addi
  dsimp only
  have hs : (BitVec.ofNat 32 q.val + 50176#32).slt 50257#32 = decide (49 * 1024 + q.val < 50257) := by
    have h1 : (BitVec.ofNat 32 q.val + 50176#32).toNat = q.val + 50176 := by
      rw [BitVec.toNat_add, BitVec.toNat_ofNat]
      show (q.val % 2 ^ 32 + 50176) % 2 ^ 32 = _
      omega
    have h2 : (BitVec.ofNat 32 q.val + 50176#32).toInt = ((q.val + 50176 : ℕ) : ℤ) := by
      rw [BitVec.toInt_eq_toNat_cond, h1]
      rw [if_pos (by omega)]
    rw [BitVec.slt, h2]
    have h3 : (50257#32 : BitVec 32).toInt = 50257 := by decide
    rw [h3]
    exact decide_eq_decide.2 ⟨fun h => by omega, fun h => by omega⟩
  rw [hs]
  by_cases h : 49 * 1024 + q.val < 50257
  · rw [if_pos h, decide_eq_true h]; rfl
  · rw [if_neg h, decide_eq_false h]; rfl

/-- The masked scores at (p, q), at a point of tile 49. -/
theorem pay7_apply (i : grid0.Coords) (hi : (i 1).val = 49) (x0 : Vec Ideal S1024x1024 .bf16) (x1 : Vec Ideal S1024x1024 .f32)
    (p q : Fin 1024) :
    k0_pay7 (F := Ideal) i x1 x0 (ix2 p q) = scMasked x0 x1 p q := by
  unfold k0_pay7 scMasked
  dsimp only
  rw [select_apply, broadcast_apply, neg_big_bot, pay3_apply]
  have hb : cmpi .slt (addi (iota .tc S1024x1024 32 [1] iota_S1024x1024_d1_w32)
      (broadcast S1024x1024 (Scalar.muli (BitVec.ofNat 32 (i 1).val) 1024#32))) (broadcast S1024x1024 50257#32) (ix2 p q)
      = if 49 * 1024 + q.val < 50257 then 1#1 else 0#1 := by
    rw [hi]
    show IntOp.cmpi .slt (IntOp.addi (iota .tc S1024x1024 32 [1] iota_S1024x1024_d1_w32 (ix2 p q))
      (Scalar.muli (BitVec.ofNat 32 49) 1024#32)) 50257#32 = _
    rw [iota_single_apply]
    exact mask_bit q
  rw [hb]
  split
  · exact select_one _ _
  · exact select_zero _ _

/-- The masked update's running maximum at row p, before the last cast. -/
theorem pay8_apply (i : grid0.Coords) (hi : (i 1).val = 49) (x0 : Vec Ideal S1024x1024 .bf16) (x1 : Vec Ideal S1024x1024 .f32)
    (xs0 : Vec Ideal S1024x1 .f32) (p : Fin 1024) :
    k0_pay8 (F := Ideal) i x1 x0 xs0 (ix2 p (0 : Fin 1)) = stepM (xs0 (ix2 p (0 : Fin 1))) (scMasked x0 x1 p) := by
  unfold k0_pay8 stepM
  rw [maximumf_apply]
  refine congrArg (max _) ?_
  refine (shapeCast_a_a1_apply _ _ p 0).trans ?_
  refine (laneMax_apply _ p).trans ?_
  exact congrArg (fun f => (Finset.univ : Finset (Fin 1024)).fold max ⊥ f) (funext fun q => pay7_apply i hi x0 x1 p q)

/-- The masked update's new running maximum at row p, at a point of tile 49. -/
theorem pay10_apply (i : grid0.Coords) (hi : (i 1).val = 49) (x0 : Vec Ideal S1024x1024 .bf16) (x1 : Vec Ideal S1024x1024 .f32)
    (xs0 : Vec Ideal S1024x1 .f32) (p : Fin 1024) :
    k0_pay10 (F := Ideal) i x1 x0 xs0 (ix2 p (0 : Fin 1)) = stepM (xs0 (ix2 p (0 : Fin 1))) (scMasked x0 x1 p) := by
  unfold k0_pay10
  rw [shapeCast_self]
  exact pay8_apply i hi x0 x1 xs0 p

/-- The masked update's new running sum at row p, at a point of tile 49. -/
theorem pay9_apply (i : grid0.Coords) (hi : (i 1).val = 49) (x0 : Vec Ideal S1024x1024 .bf16) (x1 : Vec Ideal S1024x1024 .f32)
    (xs0 xs1 : Vec Ideal S1024x1 .f32) (p : Fin 1024) :
    k0_pay9 (F := Ideal) i x1 x0 xs0 xs1 (ix2 p (0 : Fin 1))
      = stepL (xs0 (ix2 p (0 : Fin 1))) (xs1 (ix2 p (0 : Fin 1))) (scMasked x0 x1 p) := by
  unfold k0_pay9 stepL
  rw [shapeCast_self, addf_apply, mulf_apply]
  refine congrArg₂ (· + ·) ?_ ?_
  · show Ideal.exp (xs0 (ix2 p (0 : Fin 1)) - k0_pay8 (F := Ideal) i x1 x0 xs0 (ix2 p (0 : Fin 1))) * _ = _
    rw [pay8_apply i hi]
  · refine (shapeCast_a_a1_apply _ _ p 0).trans ?_
    refine (laneSum_apply _ p).trans ?_
    refine Finset.sum_congr rfl fun q _ => ?_
    show Ideal.exp (k0_pay7 (F := Ideal) i x1 x0 (ix2 p q)
      - broadcastTo S1024x1024 (k0_pay8 (F := Ideal) i x1 x0 xs0) broadcasts_S1024x1_S1024x1024 (ix2 p q)) = _
    rw [pay7_apply i hi, broadcastTo_a1_ab_apply, pay8_apply i hi]

/-- The output: the running maximum plus the logarithm of the running sum. -/
theorem pay11_apply (v42 v43 : Vec Ideal S1024x1 .f32) (j : S1024x1.Idx) :
    k0_pay11 (F := Ideal) v42 v43 j = v42 j + Ideal.log (v43 j) := by
  rfl

end Cert.KernelIdeal.Pay

end
-- ==== Proof.IVals.lean ====
/-
  The two running columns, point by point, as the running log-sum-exp of the rows' logits.

  Point n of the grid is row block n / 50 and tile n % 50.  Row p of the row block is row (n / 50) · 1024 + p of x;
  its logits against the whole vocabulary are met tile by tile.  After the body at point n the running-maximum
  column holds, at row p, the first component of the running state after tiles 0 … n % 50 of that row's logits, and
  the running-sum column the second component; at tile 49 the output block holds their combination
  m + log l.  Each case of the body takes the columns of the point before to the columns of its own point, given
  that the x block it loaded is the row block's and that the weight block agrees with weight's tile on the rows
  inside the vocabulary (the rest of the last tile's block is arbitrary: the mask removes it).
-/
import proofs.«417856_j14267881357585_3_alg».proof.Proof.IPay

noncomputable section

namespace Cert.KernelIdeal.Vals

open Idealize.ShloMosaic Idealize.ShloMosaic.ValueIdx Cert.KernelIdeal Cert.KernelIdeal.Gen Cert.Spec Cert.Online
open Cert.KernelIdeal.Pay

variable (x : SX.Idx → EReal) (w : SW.Idx → EReal)

/-- The row of x that row `p` of point `n`'s row block is. -/
def rowIx (n : ℕ) (p : Fin 1024) : Fin 4096 := ⟨((n / 50) % 4) * 1024 + p.val, by omega⟩

/-- That row's logits against the whole vocabulary. -/
def rowLg (n : ℕ) (p : Fin 1024) : Fin 50257 → EReal := logit x w (rowIx n p)

/-- The running-maximum column after the body at point `n`. -/
def mCol (n : ℕ) : Vec Ideal S1024x1 .f32 :=
  fun j => (state (tiles (rowLg x w n ⟨(j 0).val, (j 0).isLt⟩)) (n % 50 + 1)).1

/-- The running-sum column after the body at point `n`. -/
def lCol (n : ℕ) : Vec Ideal S1024x1 .f32 :=
  fun j => (state (tiles (rowLg x w n ⟨(j 0).val, (j 0).isLt⟩)) (n % 50 + 1)).2

/-- The output block after the body at a point of tile 49: the running maximum plus the logarithm of the running sum. -/
def outCol (n : ℕ) : Vec Ideal S1024x1 .f32 := fun j => mCol x w n j + Ideal.log (lCol x w n j)

/-- `x0` is the block of x at point `n`: its row p is row `rowIx n p` of x. -/
def IsXBlock (n : ℕ) (x0 : Vec Ideal S1024x1024 .bf16) : Prop :=
  ∀ p k : Fin 1024, x0 (ix2 p k) = x (ix2 (rowIx n p) k)

/-- `x1` agrees with weight's tile `n % 50` on the rows inside the vocabulary. -/
def IsWBlock (n : ℕ) (x1 : Vec Ideal S1024x1024 .f32) : Prop :=
  ∀ (q k : Fin 1024) (h : (n % 50) * 1024 + q.val < 50257), x1 (ix2 q k) = w (ix2 ⟨(n % 50) * 1024 + q.val, h⟩ k)

/-- Every index of a column is `(p, 0)`. -/
theorem col_ix (j : S1024x1.Idx) : ∃ p : Fin 1024, j = ix2 p (0 : Fin 1) :=
  ⟨⟨(j 0).val, (j 0).isLt⟩, by
    funext a
    match a with
    | ⟨0, _⟩ => rfl
    | ⟨1, _⟩ => exact Fin.ext (by have h : (j 1).val < 1 := (j 1).isLt; show (j 1).val = 0; omega)⟩

theorem mCol_apply (n : ℕ) (p : Fin 1024) :
    mCol x w n (ix2 p (0 : Fin 1)) = (state (tiles (rowLg x w n p)) (n % 50 + 1)).1 := rfl

theorem lCol_apply (n : ℕ) (p : Fin 1024) :
    lCol x w n (ix2 p (0 : Fin 1)) = (state (tiles (rowLg x w n p)) (n % 50 + 1)).2 := rfl

/-- A tile inside the vocabulary: the block's scores of row p are the row's logits of that tile. -/
theorem sc_eq_tiles (n : ℕ) (hv : n % 50 < 49) (x0 : Vec Ideal S1024x1024 .bf16) (x1 : Vec Ideal S1024x1024 .f32)
    (h0 : IsXBlock x n x0) (h1 : IsWBlock w n x1) (p : Fin 1024) :
    sc x0 x1 p = tiles (rowLg x w n p) (n % 50) := by
  funext q
  have hq := q.isLt
  have hlt : (n % 50) * 1024 + q.val < 50257 := by omega
  unfold sc tiles
  rw [dif_pos hlt]
  unfold rowLg logit
  exact Finset.sum_congr rfl (fun k _ => by rw [h0 p k, h1 q k hlt])

/-- Tile 49: the masked scores of row p are the row's logits of the last tile, `⊥` past the vocabulary's end. -/
theorem scMasked_eq_tiles (n : ℕ) (hn : n % 50 = 49) (x0 : Vec Ideal S1024x1024 .bf16) (x1 : Vec Ideal S1024x1024 .f32)
    (h0 : IsXBlock x n x0) (h1 : IsWBlock w n x1) (p : Fin 1024) :
    scMasked x0 x1 p = tiles (rowLg x w n p) 49 := by
  unfold IsWBlock at h1
  rw [hn] at h1
  funext q
  unfold scMasked tiles
  by_cases hlt : 49 * 1024 + q.val < 50257
  · rw [if_pos hlt, dif_pos hlt]
    unfold sc rowLg logit
    exact Finset.sum_congr rfl (fun k _ => by rw [h0 p k, h1 q k hlt])
  · rw [if_neg hlt, dif_neg hlt]

/-- The point before a point that is not at tile 0 is in the same row block. -/
theorem rowLg_pred (n : ℕ) (hn0 : n % 50 ≠ 0) (p : Fin 1024) : rowLg x w (n - 1) p = rowLg x w n p := by
  have e2 : (n - 1) / 50 = n / 50 := by omega
  unfold rowLg rowIx
  simp only [e2]

/-- Tile 0: from the reset values the update gives the columns of the point. -/
theorem valA (n : ℕ) (hn : n % 50 = 0) (x0 : Vec Ideal S1024x1024 .bf16) (x1 : Vec Ideal S1024x1024 .f32)
    (h0 : IsXBlock x n x0) (h1 : IsWBlock w n x1) :
    k0_pay6 (F := Ideal) x1 x0 (k0_pay1 (F := Ideal)) = mCol x w n
      ∧ k0_pay5 (F := Ideal) x1 x0 (k0_pay1 (F := Ideal)) (k0_pay2 (F := Ideal)) = lCol x w n := by
  have hv : n % 50 < 49 := by omega
  constructor
  · funext j
    obtain ⟨p, rfl⟩ := col_ix j
    rw [pay6_apply, pay1_apply, mCol_apply, sc_eq_tiles x w n hv x0 x1 h0 h1 p, hn]
    rfl
  · funext j
    obtain ⟨p, rfl⟩ := col_ix j
    rw [pay5_apply, pay1_apply, pay2_apply, lCol_apply, sc_eq_tiles x w n hv x0 x1 h0 h1 p, hn]
    rfl

/-- Tiles 1 to 48: the update takes the columns of the point before to the columns of the point. -/
theorem valB (n : ℕ) (hn0 : n % 50 ≠ 0) (hn1 : n % 50 ≠ 49) (x0 : Vec Ideal S1024x1024 .bf16) (x1 : Vec Ideal S1024x1024 .f32)
    (h0 : IsXBlock x n x0) (h1 : IsWBlock w n x1) :
    k0_pay6 (F := Ideal) x1 x0 (mCol x w (n - 1)) = mCol x w n
      ∧ k0_pay5 (F := Ideal) x1 x0 (mCol x w (n - 1)) (lCol x w (n - 1)) = lCol x w n := by
  have hv : n % 50 < 49 := by have := Nat.mod_lt n (by norm_num : 50 > 0); omega
  have e1 : (n - 1) % 50 + 1 = n % 50 := by omega
  constructor
  · funext j
    obtain ⟨p, rfl⟩ := col_ix j
    rw [pay6_apply, mCol_apply, mCol_apply, sc_eq_tiles x w n hv x0 x1 h0 h1 p, rowLg_pred x w n hn0, e1]
    rfl
  · funext j
    obtain ⟨p, rfl⟩ := col_ix j
    rw [pay5_apply, mCol_apply, lCol_apply, lCol_apply, sc_eq_tiles x w n hv x0 x1 h0 h1 p, rowLg_pred x w n hn0, e1]
    rfl

/-- Tile 49: the masked update takes the columns of the point before to the columns of the point, and the output
    block is their combination. -/
theorem valC (n : ℕ) (hn : n % 50 = 49) (i : grid0.Coords) (hi : (i 1).val = 49)
    (x0 : Vec Ideal S1024x1024 .bf16) (x1 : Vec Ideal S1024x1024 .f32)
    (h0 : IsXBlock x n x0) (h1 : IsWBlock w n x1) :
    k0_pay10 (F := Ideal) i x1 x0 (mCol x w (n - 1)) = mCol x w n
      ∧ k0_pay9 (F := Ideal) i x1 x0 (mCol x w (n - 1)) (lCol x w (n - 1)) = lCol x w n
      ∧ k0_pay11 (F := Ideal) (k0_pay10 (F := Ideal) i x1 x0 (mCol x w (n - 1)))
            (k0_pay9 (F := Ideal) i x1 x0 (mCol x w (n - 1)) (lCol x w (n - 1))) = outCol x w n := by
  have hn0 : n % 50 ≠ 0 := by omega
  have e1 : (n - 1) % 50 + 1 = 49 := by omega
  have hA : k0_pay10 (F := Ideal) i x1 x0 (mCol x w (n - 1)) = mCol x w n := by
    funext j
    obtain ⟨p, rfl⟩ := col_ix j
    rw [pay10_apply i hi, mCol_apply, mCol_apply, scMasked_eq_tiles x w n hn x0 x1 h0 h1 p, rowLg_pred x w n hn0, e1, hn]
    rfl
  have hB : k0_pay9 (F := Ideal) i x1 x0 (mCol x w (n - 1)) (lCol x w (n - 1)) = lCol x w n := by
    funext j
    obtain ⟨p, rfl⟩ := col_ix j
    rw [pay9_apply i hi, mCol_apply, lCol_apply, lCol_apply, scMasked_eq_tiles x w n hn x0 x1 h0 h1 p,
      rowLg_pred x w n hn0, e1, hn]
    rfl
  refine ⟨hA, hB, ?_⟩
  rw [hA, hB]
  funext j
  exact pay11_apply _ _ j

/-- At a point of tile 49 the output block holds each row's log-sum-exp, while x and weight hold real numbers. -/
theorem outCol_eq_lse (n : ℕ) (hn : n % 50 = 49) (hx : ∀ i, ∃ r : ℝ, x i = (r : EReal)) (hw : ∀ i, ∃ r : ℝ, w i = (r : EReal))
    (p : Fin 1024) : outCol x w n (ix2 p (0 : Fin 1)) = lse (logit x w (rowIx n p)) := by
  show (state (tiles (rowLg x w n p)) (n % 50 + 1)).1 + Ideal.log (state (tiles (rowLg x w n p)) (n % 50 + 1)).2 = _
  rw [hn]
  exact state_lse (rowLg x w n p) (fun v => logit_real x w hx hw (rowIx n p) v)

end Cert.KernelIdeal.Vals

end
-- ==== Proof.IBlocks.lean ====
/-
  The blocks the body loads, read off the argument arrays.

  The x window's block at point t is rows (t / 50) · 1024 … of the half-precision copy of x, which at the ideal
  instance is x itself.  The weight window's block at point t is rows (t % 50) · 1024 … of weight; at tile 49 only 81
  of its 1024 rows are inside the array, and the staging buffer holds the block on those rows and arbitrary words
  below them.
-/
import proofs.«417856_j14267881357585_3_alg».proof.Proof.IRuns
import proofs.«417856_j14267881357585_3_alg».proof.Proof.IVals

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Idealize.ShloMosaic.ValueIdx

variable (m : (ℓ : Loc nD τ sig) → Buf (Elt Ideal) ℓ)

/-- The half-precision copy of x the region finds is, at the ideal instance, x itself: the one host line before the
    region converts x, and the conversion is the identity on extended reals. -/
theorem V_main_v0 (c : Dev nD) (i : S4096x1024.Idx) :
    V (F := Ideal) m c main_v0 i = m ((c : Thread nD τ).loc main_arg0) i := by
  have e : V (F := Ideal) m c main_v0
      = (truncf (F := Ideal) (s := S4096x1024) (φ := .f32) .bf16 (m ((c : Thread nD τ).loc main_arg0)) bitsLt_bf16_f32) := by
    show StableHlo.after hostOps0 (fun b => m (c, b)) (Proc.devRef .tc main_v0) = _
    after_results
  rw [e]; rfl

/-- The x window's block index at point `t`: the row block on the rows, zero on the columns. -/
theorem index0_0 : ∀ t : Fin grid0.N, win0_0.index t (0 : Fin 2) = t.val / 50 ∧ win0_0.index t (1 : Fin 2) = 0 := by
  decide +kernel

/-- The weight window's block index at point `t`: the tile on the rows, zero on the columns. -/
theorem index0_1 : ∀ t : Fin grid0.N, win0_1.index t (0 : Fin 2) = t.val % 50 ∧ win0_1.index t (1 : Fin 2) = 0 := by
  decide +kernel

/-- What the weight window's transfer moves at point `t`: all 1024 rows at the tiles below 49, the 81 rows inside the
    array at tile 49; every column. -/
theorem xsize0_1 : ∀ t : Fin grid0.N, win0_1.xsize (grid0.coords t) (0 : Fin 2) = (if t.val % 50 = 49 then 81 else 1024)
    ∧ win0_1.xsize (grid0.coords t) (1 : Fin 2) = 1024 := by
  decide +kernel

/-- The x window's block at point `t` is the row block's rows of x. -/
theorem isXBlock (c : Dev nD) (t : Fin cfg0.N) :
    Cert.KernelIdeal.Vals.IsXBlock (m ((c : Thread nD τ).loc main_arg0)) t.val (iblk (F := Ideal) m c 0 t) := by
  intro p k
  show V (F := Ideal) m c main_v0 (((cfg0.win 0).blk t).view.emb (ix2 p k)) = _
  rw [V_main_v0]
  congr 1
  funext a
  apply Fin.ext
  have hN : t.val < 200 := lt_of_lt_of_eq t.isLt (show cfg0.N = 200 from N_0)
  obtain ⟨h0, h1⟩ := index0_0 t
  match a with
  | ⟨0, _⟩ =>
    show win0_0.index t 0 * 1024 + 1 * p.val = ((t.val / 50) % 4) * 1024 + p.val
    rw [h0]; omega
  | ⟨1, _⟩ =>
    show win0_0.index t 1 * 1024 + 1 * k.val = k.val
    rw [h1]; omega

/-- The weight window's staging buffer at point `t`, whatever filled its rows past the array's end, agrees with
    weight's tile on the rows inside the array. -/
theorem isWBlock (c : Dev nD) (t : Fin cfg0.N) (d : S1024x1024.Idx → EReal) :
    Cert.KernelIdeal.Vals.IsWBlock (m ((c : Thread nD τ).loc main_arg1)) t.val
      (win0_1.fill (grid0.coords t) d (iblk (F := Ideal) m c 1 t)) := by
  intro q k h
  have hN : t.val < 200 := lt_of_lt_of_eq t.isLt (show cfg0.N = 200 from N_0)
  obtain ⟨hx0, hx1⟩ := xsize0_1 t
  obtain ⟨h0, h1⟩ := index0_1 t
  have hmoved : win0_1.moved (grid0.coords t) (ix2 q k) = true := by
    rw [Window.moved_iff]
    intro a
    match a with
    | ⟨0, _⟩ =>
      show q.val < win0_1.xsize (grid0.coords t) 0
      rw [hx0]; split <;> omega
    | ⟨1, _⟩ =>
      show k.val < win0_1.xsize (grid0.coords t) 1
      rw [hx1]; exact k.isLt
  unfold Window.fill
  rw [dif_pos hmoved]
  show V (F := Ideal) m c main_arg1 (((cfg0.win 1).blk t).view.emb _) = _
  rw [V_main_arg1]
  congr 1
  funext a
  apply Fin.ext
  match a with
  | ⟨0, _⟩ =>
    show win0_1.index t 0 * 1024 + 1 * q.val = (t.val % 50) * 1024 + q.val
    rw [h0]; omega
  | ⟨1, _⟩ =>
    show win0_1.index t 1 * 1024 + 1 * k.val = k.val
    rw [h1]; omega

end Cert.KernelIdeal.Body

end
-- ==== Proof.IFrame.lean ====
/-
  The frame of the idealized program, with what every buffer holds named.

  The proof data: the arrays as the region finds them; after the body at point t the x window's buffer at its block,
  the weight window's at its block (on the rows inside the array), the output window's at the combination of the two
  running columns; and the region's invariant carries the two scratch columns at the running state of the rows'
  logits after the point's tile (at anything before the first point).  The body obligation is the three runs of the
  body, one per case of the tile number, each followed by the reading of what the run left.
-/
import proofs.«417856_j14267881357585_3_alg».proof.Proof.IPieces
import proofs.«417856_j14267881357585_3_alg».proof.Proof.IVals
import proofs.«417856_j14267881357585_3_alg».proof.Proof.IBlocks

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Vals Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The arguments x and weight on device `c`. -/
abbrev xA (c : Dev nD) : Cert.Spec.SX.Idx → EReal := m ((c : Thread nD τ).loc main_arg0)
abbrev wA (c : Dev nD) : Cert.Spec.SW.Idx → EReal := m ((c : Thread nD τ).loc main_arg1)

/-- The tile number of a point. -/
theorem coords_tile : ∀ t : Fin cfg0.N, ((grid0.coords t) 1).val = t.val % 50 :=
  (by decide +kernel : ∀ t : Fin grid0.N, ((grid0.coords t) 1).val = t.val % 50)

/-! ## The invariant and the proof data -/

/-- The region's invariant before point `n`: before the first point every scratch at anything; afterwards the two
    scratch columns at the running state the point before left. -/
def PhiS (c : Dev nD) : (n : ℕ) → n ≤ cfg0.N → sProp 𝕄
  | 0, _ => Pipeline.ΦA spec0 c
  | n + 1, _ => iprop(iprop(owns (c : Thread nD τ) scM0_0 fullShare (mCol (xA m c) (wA m c) n)
      ∗ owns (c : Thread nD τ) scM0_1 fullShare (lCol (xA m c) (wA m c) n)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scM0_0 fullShare (mCol (xA m c) (wA m c) n)
      ∗ owns (c : Thread nD τ) scM0_1 fullShare (lCol (xA m c) (wA m c) n)) ∗ (∃ r, prngReg c r)) := rfl

theorem PhiS_pos (c : Dev nD) (n : ℕ) (h : n ≤ cfg0.N) (hz : n ≠ 0) :
    PhiS m c n h = iprop(iprop(owns (c : Thread nD τ) scM0_0 fullShare (mCol (xA m c) (wA m c) (n - 1))
      ∗ owns (c : Thread nD τ) scM0_1 fullShare (lCol (xA m c) (wA m c) (n - 1))) ∗ (∃ r, prngReg c r)) := by
  cases n with
  | zero => exact absurd rfl hz
  | succ n => rfl

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => outCol (xA m c) (wA m c) t.val
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => (0 : EReal)) (iblk m c 1 t) := by dsimp only [dats]
theorem after0_2 (c : Dev nD) (t : Fin cfg0.N) : (dats m 0 c).after 2 t = outCol (xA m c) (wA m c) t.val := by dsimp only [dats]

/-- The x window's buffer holds its block at every point, fetched there or not. -/
theorem before0_0 (c : Dev nD) (t : Fin cfg0.N) (d) : (dats m 0 c).before 0 t d = iblk m c 0 t :=
  before0_0_of m (dats m 0 c) (A_eq m c 0) (after0_0 m c) t d

/-- The weight window's buffer, fetched at every point, holds its block on the rows inside the array and what the
    fetch's overwrite left elsewhere. -/
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t)

theorem leaves0_0 (c : Dev nD) (t : Fin cfg0.N) :
    (dats m 0 c).leaves 0 t = owns (c : Thread nD τ) (ms0_0 t) fullShare (iblk m c 0 t) := by
  unfold Dat.leaves; rw [liveAt0_0 t, after0_0]

theorem leaves0_1 (c : Dev nD) (t : Fin cfg0.N) :
    (dats m 0 c).leaves 1 t = iprop(∃ d, owns (c : Thread nD τ) (ms0_1 t) fullShare (win0_1.fill (grid0.coords t) d (iblk m c 1 t))) := by
  unfold Dat.leaves; rw [liveAt0_1 t, after0_1]
  simp only [Window.cut_fill]
  rfl

theorem leaves0_2_live (c : Dev nD) (t : Fin cfg0.N) (h : cond0_2 (grid0.coords t)) :
    (dats m 0 c).leaves 2 t = owns (c : Thread nD τ) (ms0_2 t) fullShare (outCol (xA m c) (wA m c) t.val) := by
  unfold Dat.leaves; rw [liveAt0_2 t h, after0_2]

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0_0, leaves0_1]
  have hN : t.val < 200 := lt_of_lt_of_eq t.isLt (show cfg0.N = 200 from N_0)
  have hX := isXBlock m c t
  by_cases h0 : t.val % 50 = 0
  · -- tile 0
    have hc0 : cond0_0 (grid0.coords t) := (hcond0_0 t).mpr h0
    have hc1 : cond0_1 (grid0.coords t) := (hcond0_1 t).mpr (by omega)
    have hc2 : ¬cond0_2 (grid0.coords t) := fun h => by have := (hcond0_2 t).mp h; omega
    rw [Dat.leaves_idle (dats m 0 c) 2 t (idleAt0_2 t hc2) (noFlush0_2 t hc2)]
    have fin : ∀ (d0) (d1 : S1024x1024.Idx → EReal) (d2),
        iprop(iprop(iprop((∃ d, owns (c : Thread nD τ) scM0_0 fullShare d) ∗ (∃ d, owns (c : Thread nD τ) scM0_1 fullShare d)) ∗ (∃ r, prngReg c r))
          ∗ (dats m 0 c).owesAt () t.castSucc
          ∗ owns (c : Thread nD τ) (ms0_0 t) fullShare ((dats m 0 c).before 0 t d0)
          ∗ owns (c : Thread nD τ) (ms0_1 t) fullShare ((dats m 0 c).before 1 t d1)
          ∗ owns (c : Thread nD τ) (ms0_2 t) fullShare ((dats m 0 c).before 2 t d2))
        ⊢ wp frame (wpE (defs₀ (F := Ideal)) Variants.none c none) Set.univ
            (cc0__loss_kernel (grid0.coords t) (ms0_0 t) (hs0_0 t) (ms0_1 t) (hs0_1 t) (ms0_2 t) (hs0_2 t) scM0_0 (Memref.isWhole_whole _) scM0_1 (Memref.isWhole_whole _))
            (fun _ => iprop(iprop(iprop(owns (c : Thread nD τ) scM0_0 fullShare (mCol (xA m c) (wA m c) t.val)
                ∗ owns (c : Thread nD τ) scM0_1 fullShare (lCol (xA m c) (wA m c) t.val)) ∗ (∃ r, prngReg c r))
              ∗ (dats m 0 c).owesAt () t.castSucc
              ∗ owns (c : Thread nD τ) (ms0_0 t) fullShare (iblk m c 0 t)
              ∗ (∃ d, owns (c : Thread nD τ) (ms0_1 t) fullShare (win0_1.fill (grid0.coords t) d (iblk m c 1 t)))
              ∗ (∃ d, owns (c : Thread nD τ) (ms0_2 t) fullShare ((dats m 0 c).before 2 t d)))) := by
      intro d0 d1 d2
      have hW := isWBlock m c t d1
      have hv := valA (xA m c) (wA m c) t.val h0 (iblk m c 0 t) (win0_1.fill (grid0.coords t) d1 (iblk m c 1 t)) hX hW
      rw [before0_0 m c t d0, before0_1 m c t d1]
      iintro ⟨⟨⟨HS0, HS1⟩, Hg⟩, Ho, H0, H1, H2⟩
      iapply ((kernelRun0_A (F := Ideal) c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t)
        (win0_1.fill (grid0.coords t) d1 (iblk m c 1 t))).2.2 ((dats m 0 c).before 2 t d2) Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro
            exact (View.read_writes_eq_canon _ _ _ (scoverA_0 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t)))).trans ((soutA_0 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t))).trans (hv.1))
          · unfold owns; iexists _; isplitr
            swap; · iexact HS1
            ipureintro
            exact (View.read_writes_eq_canon _ _ _ (scoverA_1 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t)))).trans ((soutA_1 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t))).trans (hv.2))
        · iexact Hg
      isplitl [Ho]; · iexact Ho
      isplitl [H0]; · iexact H0
      isplitl [H1]; · iexists d1; iexact H1
      · iexists d2; iexact H2
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩⟩
      iapply (fin d0 d1 d2)
      isplitl [HS0 HS1 Hg]
      · isplitl [HS0 HS1]
        · isplitl [HS0]; · iexact HS0
          iexact HS1
        · iexact Hg
      isplitl [Ho]; · iexact Ho
      isplitl [H0]; · iexact H0
      isplitl [H1]; · iexact H1
      · iexact H2
    · rw [PhiS_castSucc m c t, PhiS_pos m c _ _ hz]
      iintro ⟨⟨⟨HS0, HS1⟩, Hg⟩, Ho, ⟨%d0, H0⟩, ⟨%d1, H1⟩, ⟨%d2, H2⟩⟩
      iapply (fin d0 d1 d2)
      isplitl [HS0 HS1 Hg]
      · isplitl [HS0 HS1]
        · isplitl [HS0]; · iexists _; iexact HS0
          iexists _; iexact HS1
        · iexact Hg
      isplitl [Ho]; · iexact Ho
      isplitl [H0]; · iexact H0
      isplitl [H1]; · iexact H1
      · iexact H2
  · have hz : t.val ≠ 0 := fun h => h0 (by rw [h])
    rw [PhiS_castSucc m c t, PhiS_pos m c _ _ hz]
    by_cases h1 : t.val % 50 = 49
    · -- tile 49
      have hc0 : ¬cond0_0 (grid0.coords t) := fun h => h0 ((hcond0_0 t).mp h)
      have hc1 : ¬cond0_1 (grid0.coords t) := fun h => ((hcond0_1 t).mp h) h1
      have hc2 : cond0_2 (grid0.coords t) := (hcond0_2 t).mpr h1
      have hi : ((grid0.coords t) 1).val = 49 := (coords_tile t).trans h1
      rw [leaves0_2_live m c t hc2]
      iintro ⟨⟨⟨HS0, HS1⟩, Hg⟩, Ho, ⟨%d0, H0⟩, ⟨%d1, H1⟩, ⟨%d2, H2⟩⟩
      have hW := isWBlock m c t d1
      have hv := valC (xA m c) (wA m c) t.val h1 (grid0.coords t) hi (iblk m c 0 t) (win0_1.fill (grid0.coords t) d1 (iblk m c 1 t)) hX hW
      rw [before0_0 m c t d0, before0_1 m c t d1]
      iapply ((kernelRun0_C (F := Ideal) c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t)
        (win0_1.fill (grid0.coords t) d1 (iblk m c 1 t)) (mCol (xA m c) (wA m c) (t.val - 1)) (lCol (xA m c) (wA m c) (t.val - 1))).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro
            exact (View.read_writes_eq_canon _ _ _ (scoverC_0 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t)) (mCol (xA m c) (wA m c) (t.val - 1)) (lCol (xA m c) (wA m c) (t.val - 1)))).trans ((soutC_0 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t)) (mCol (xA m c) (wA m c) (t.val - 1)) (lCol (xA m c) (wA m c) (t.val - 1))).trans (hv.1))
          · unfold owns; iexists _; isplitr
            swap; · iexact HS1
            ipureintro
            exact (View.read_writes_eq_canon _ _ _ (scoverC_1 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t)) (mCol (xA m c) (wA m c) (t.val - 1)) (lCol (xA m c) (wA m c) (t.val - 1)))).trans ((soutC_1 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t)) (mCol (xA m c) (wA m c) (t.val - 1)) (lCol (xA m c) (wA m c) (t.val - 1))).trans (hv.2.1))
        · iexact Hg
      isplitl [Ho]; · iexact Ho
      isplitl [H0]; · iexact H0
      isplitl [H1]; · iexists d1; iexact H1
      · unfold owns; iexists _; isplitr
        swap; · iexact H2
        ipureintro
        exact (View.read_writes_eq_canon _ _ _ (coverC_2 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t)) (mCol (xA m c) (wA m c) (t.val - 1)) (lCol (xA m c) (wA m c) (t.val - 1)))).trans ((outC_2 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t)) (mCol (xA m c) (wA m c) (t.val - 1)) (lCol (xA m c) (wA m c) (t.val - 1))).trans hv.2.2)
    · -- tiles 1 to 48
      have hc0 : ¬cond0_0 (grid0.coords t) := fun h => h0 ((hcond0_0 t).mp h)
      have hc1 : cond0_1 (grid0.coords t) := (hcond0_1 t).mpr h1
      have hc2 : ¬cond0_2 (grid0.coords t) := fun h => h1 ((hcond0_2 t).mp h)
      rw [Dat.leaves_idle (dats m 0 c) 2 t (idleAt0_2 t hc2) (noFlush0_2 t hc2)]
      iintro ⟨⟨⟨HS0, HS1⟩, Hg⟩, Ho, ⟨%d0, H0⟩, ⟨%d1, H1⟩, ⟨%d2, H2⟩⟩
      have hW := isWBlock m c t d1
      have hv := valB (xA m c) (wA m c) t.val h0 h1 (iblk m c 0 t) (win0_1.fill (grid0.coords t) d1 (iblk m c 1 t)) hX hW
      rw [before0_0 m c t d0, before0_1 m c t d1]
      iapply ((kernelRun0_B (F := Ideal) c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t)
        (win0_1.fill (grid0.coords t) d1 (iblk m c 1 t)) (mCol (xA m c) (wA m c) (t.val - 1)) (lCol (xA m c) (wA m c) (t.val - 1))).2.2
          ((dats m 0 c).before 2 t d2) Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro
            exact (View.read_writes_eq_canon _ _ _ (scoverB_0 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t)) (mCol (xA m c) (wA m c) (t.val - 1)) (lCol (xA m c) (wA m c) (t.val - 1)))).trans ((soutB_0 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t)) (mCol (xA m c) (wA m c) (t.val - 1)) (lCol (xA m c) (wA m c) (t.val - 1))).trans (hv.1))
          · unfold owns; iexists _; isplitr
            swap; · iexact HS1
            ipureintro
            exact (View.read_writes_eq_canon _ _ _ (scoverB_1 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t)) (mCol (xA m c) (wA m c) (t.val - 1)) (lCol (xA m c) (wA m c) (t.val - 1)))).trans ((soutB_1 c (grid0.coords t) (ms0_0 t) (hs0_0 t) (ms0_1 t) (hs0_1 t) (ms0_2 t) (hs0_2 t) scM0_0 (Memref.isWhole_whole _) scM0_1 (Memref.isWhole_whole _) hc0 hc1 hc2 (iblk m c 0 t) (win0_1.fill (grid0.coords t) d1 (iblk m c 1 t)) (mCol (xA m c) (wA m c) (t.val - 1)) (lCol (xA m c) (wA m c) (t.val - 1))).trans (hv.2))
        · iexact Hg
      isplitl [Ho]; · iexact Ho
      isplitl [H0]; · iexact H0
      isplitl [H1]; · iexists d1; iexact H1
      · iexists d2; iexact H2

/-- The library's body obligation, at every point. -/
theorem body_obligation (c : Dev nD) : BodyObligationLoose (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 200 := N_0; omega), PhiA0_eq]
  iintro ⟨⟨HS0, HS1⟩, Hg⟩
  isplitl [HS0 HS1]
  · isplitl [HS0]; · iexists _; iexact HS0
    iexists _; iexact HS1
  iexact Hg

/-! ## The run and the frame -/

set_option backward.isDefEq.respectTransparency.types false in
/-- Every weakly fair execution of @main terminates, and every final state has every array of the pipeline at what
    the proof data computes and every other unscoped buffer as the host lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame of the idealized program. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.IOutCol.lean ====
/-
  The output column after the region.

  The output window is written back at the points of tile 49, one per row block, and those four blocks tile the
  output column: so after the region the column holds, at row r, what the point of tile 49 of r's row block left at
  row r % 1024 — the row's log-sum-exp, while x and weight hold real numbers.
-/
import proofs.«417856_j14267881357585_3_alg».proof.Proof.IFrame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Vals Idealize.ShloMosaic.ValueIdx

variable (m : (ℓ : Loc nD τ sig) → Buf (Elt Ideal) ℓ) (ρ : Dev nD → PrngReg)

/-- The output window's block index at point `t`: the row block on the rows, zero on the one column. -/
theorem index0_2 : ∀ t : Fin grid0.N, win0_2.index t (0 : Fin 2) = t.val / 50 ∧ win0_2.index t (1 : Fin 2) = 0 := by
  decide +kernel

/-- The column the output array ends holding: each row's log-sum-exp. -/
def lseCol (c : Dev nD) : S4096x1.Idx → EReal :=
  fun i => Cert.Spec.lse (Cert.Spec.logit (xA m c) (wA m c) ⟨(i 0).val, (i 0).isLt⟩)

/-- What a point of tile 49 writes back is its block of that column, while x and weight hold real numbers: row p of
    the block is row (t / 50) · 1024 + p of the column, and the output block there holds that row's log-sum-exp. -/
theorem flushed2_eq (c : Dev nD) (hx : ∀ i, ∃ r : ℝ, xA m c i = (r : EReal)) (hw : ∀ i, ∃ r : ℝ, wA m c i = (r : EReal))
    (t : Fin cfg0.N) (hf : (cfg0.win 2).flush t = true) :
    (dats m 0 c).flushed 2 t = ((cfg0.win 2).blk t).view.read (Elt Ideal) (lseCol m c) := by
  have h49 : t.val % 50 = 49 := (flush0_2 t).mp hf
  have hN : t.val < 200 := lt_of_lt_of_eq t.isLt (show cfg0.N = 200 from N_0)
  show (cfg0.win 2).cut (grid0.coords t) ((dats m 0 c).after 2 t) = _
  rw [after0_2]
  funext j
  have hj0 : (j 0).val < 1024 := (j 0).isLt
  have hj1 : (j 1).val < 1 := (j 1).isLt
  have e1 : (cfg0.win 2).xinj (grid0.coords t) j = ix2 (⟨(j 0).val, hj0⟩ : Fin 1024) (0 : Fin 1) := by
    funext a; apply Fin.ext
    match a with
    | ⟨0, _⟩ => rfl
    | ⟨1, _⟩ => show (j 1).val = 0; omega
  show outCol (xA m c) (wA m c) t.val ((cfg0.win 2).xinj (grid0.coords t) j) = lseCol m c (((cfg0.win 2).blk t).view.emb j)
  rw [e1, outCol_eq_lse (xA m c) (wA m c) t.val h49 hx hw]
  refine congrArg (fun r : Fin 4096 => Cert.Spec.lse (Cert.Spec.logit (xA m c) (wA m c) r)) (Fin.ext ?_)
  show ((t.val / 50) % 4) * 1024 + (j 0).val = win0_2.index t 0 * 1024 + 1 * (j 0).val
  rw [(index0_2 t).1]; omega

/-- An index of the output array is in point `t`'s block iff each coordinate is in the block's range on its axis. -/
theorem mem_blk2 (t : Fin cfg0.N) (i : S4096x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v1).slice (win0_2.rect t)).set ↔ _
  rw [View.set_slice_whole, Rect.mem_set_unit]
  exact Iff.rfl

/-- After the region the output column holds each row's log-sum-exp. -/
theorem final_out (c : Dev nD) (hx : ∀ i, ∃ r : ℝ, xA m c i = (r : EReal)) (hw : ∀ i, ∃ r : ℝ, wA m c i = (r : EReal))
    (n : Fin 4096) :
    ((dats m 0 c).arrAt 2 cfg0.N : S4096x1.Idx → EReal) (ix2 n (0 : Fin 1))
      = Cert.Spec.lse (Cert.Spec.logit (xA m c) (wA m c) n) := by
  have hn : n.val < 4096 := n.isLt
  -- the point of tile 49 of row n's row block writes the row back
  obtain ⟨t, ht⟩ : ∃ t : Fin cfg0.N, t.val = (n.val / 1024) * 50 + 49 :=
    ⟨⟨(n.val / 1024) * 50 + 49, lt_of_lt_of_eq (by omega : (n.val / 1024) * 50 + 49 < 200) (show cfg0.N = 200 from N_0).symm⟩, rfl⟩
  have hf : (cfg0.win 2).flush t = true := (flush0_2 t).mpr (by rw [ht]; omega)
  obtain ⟨h0, h1⟩ := index0_2 t
  have hi : (ix2 n (0 : Fin 1) : S4096x1.Idx) ∈ ((cfg0.win 2).blk t).view.set := by
    rw [mem_blk2]
    intro a
    match a with
    | ⟨0, _⟩ =>
      show win0_2.index t 0 * 1024 ≤ n.val ∧ n.val < win0_2.index t 0 * 1024 + 1024
      rw [h0, ht]; omega
    | ⟨1, _⟩ =>
      show win0_2.index t 1 * 1 ≤ 0 ∧ 0 < win0_2.index t 1 * 1 + 1
      rw [h1]; omega
  exact (dats m 0 c).arrAt_apply_of_mem 2 (lseCol m c) (fun t hf => flushed2_eq m c hx hw t hf) cfg0.N t (ix2 n (0 : Fin 1)) t.isLt hf hi

end Cert.KernelIdeal.Body

end
-- ==== Proof.ITail.lean ====
/-
  The host operations after the region, as one function.

  After the region the program normalises the labels (a negative label would have the vocabulary's size added; none
  is negative here), gathers the weight row of each label, multiplies it entry by entry with the row of x and sums
  over the features — the logit at the label —, subtracts that from the region's output column and takes the mean.
  With the output column holding each row's log-sum-exp this is the loss.
-/
import proofs.«417856_j14267881357585_3_alg».proof.Proof.Gen.KernelIdeal
import proofs.«417856_j14267881357585_3_alg».proof.Proof.Online
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Tail

open Idealize.ShloMosaic Idealize.ShloMosaic.ValueIdx Cert.KernelIdeal
open Cert.KernelIdeal.Facts₀

/-- The eighteen host operations after the region, composed: from x, weight, the labels and the region's output
    column `o` to the program's result. -/
def tailFn (x : FVec Ideal S4096x1024 .f32) (w : FVec Ideal S50257x1024 .f32) (t : IVec S4096 32) (o : FVec Ideal S4096x1 .f32) :
    FVec Ideal S_ .f32 :=
  Host.divf
    (Host.reduceAdd
      (subf (shapeCast S4096 o shapeCasts_S4096x1_S4096)
        (Host.reduceAdd
          (mulf x
            (Host.gather gather_S50257x1024_S4096x1_S4096x1024_1_0_n_n_0_1_11024 w
              (broadcastInDim S4096x1 ![0] bcast_S4096_S4096x1_0
                (select (cmpi .slt t (broadcastInDim S4096 ![] bcast_S_S4096 (constantI S_ 32 0#32)))
                  (addi t (broadcastInDim S4096 ![] bcast_S_S4096 (constantI S_ 32 50257#32))) t))))
          (constant (F := Ideal) S_ .f32 0x00000000#32) reducesTo_S4096x1024_S4096_d1 h_S_))
      (constant (F := Ideal) S_ .f32 0x00000000#32) reducesTo_S4096_S_d0 h_S_)
    (constant (F := Ideal) S_ .f32 0x45800000#32)

/-- A word that is not negative as a signed number does not compare below zero. -/
theorem slt_zero_of_nonneg (a : BitVec 32) (h : 0 ≤ a.toInt) : IntOp.cmpi .slt a 0#32 = 0#1 := by
  unfold IntOp.cmpi
  show BitVec.ofBool (a.slt 0#32) = 0#1
  have : a.slt 0#32 = false := by
    rw [BitVec.slt_eq_decide]
    simp only [BitVec.toInt_zero, decide_eq_false_iff_not, not_lt]
    exact h
  rw [this]; rfl

/-- With no label negative the normalisation of the labels leaves them as they are. -/
theorem labels_norm (t : IVec S4096 32) (ht : ∀ i, 0 ≤ (t i).toInt ∧ (t i).toInt < 50257) :
    select (cmpi .slt t (broadcastInDim S4096 ![] bcast_S_S4096 (constantI S_ 32 0#32)))
      (addi t (broadcastInDim S4096 ![] bcast_S_S4096 (constantI S_ 32 50257#32))) t = t := by
  funext i
  rw [select_apply]
  have hc : cmpi .slt t (broadcastInDim S4096 ![] bcast_S_S4096 (constantI S_ 32 0#32)) i = 0#1 := by
    show IntOp.cmpi .slt (t i) (broadcastInDim S4096 ![] bcast_S_S4096 (constantI S_ 32 0#32) i) = 0#1
    rw [broadcastInDim_scalar_apply]
    exact slt_zero_of_nonneg _ (ht i).1
  rw [hc, select_zero]

/-- The weight row a gather reads: at output (n, d) the source index is (the start index of row n, read signed and
    clamped into the vocabulary; d). Axis 0 of the operand is collapsed and start-indexed, axis 1 is the offset axis. -/
theorem gather_row (w : FVec Ideal S50257x1024 .f32) (idx : IVec S4096x1 32) (n : Fin 4096) (d : Fin 1024) :
    Host.gather gather_S50257x1024_S4096x1_S4096x1024_1_0_n_n_0_1_11024 w idx (ix2 n d)
      = w (ix2 (⟨min (idx (ix2 n (0 : Fin 1))).toInt.toNat 50256, by omega⟩ : Fin 50257) d) := by
  unfold Host.gather
  congr 1
  funext a
  apply Fin.ext
  have hnb : ∀ c : Fin 2, c ∉ (gather_S50257x1024_S4096x1_S4096x1024_1_0_n_n_0_1_11024).operandBatchingDims := fun c => List.not_mem_nil
  match a with
  | ⟨0, _⟩ =>
    have hm : (0 : Fin 2) ∈ (gather_S50257x1024_S4096x1_S4096x1024_1_0_n_n_0_1_11024).startIndexMap := List.mem_singleton.mpr rfl
    have hk : (0 : Fin 2) ∉ (gather_S50257x1024_S4096x1_S4096x1024_1_0_n_n_0_1_11024).sKept := fun h =>
      ((GatherDims.mem_sKept _ _).mp h).1 (List.mem_singleton.mpr rfl)
    show (gather_S50257x1024_S4096x1_S4096x1024_1_0_n_n_0_1_11024).start (ix2 n d) idx 0 + (gather_S50257x1024_S4096x1_S4096x1024_1_0_n_n_0_1_11024).batchCoord (ix2 n d) 0 + (gather_S50257x1024_S4096x1_S4096x1024_1_0_n_n_0_1_11024).offCoord (ix2 n d) 0 = _
    rw [GatherDims.batchCoord_eq_zero _ _ _ (hnb 0), GatherDims.offCoord_eq_zero _ _ _ hk]
    simp only [Nat.add_zero]
    unfold GatherDims.start
    rw [dif_pos hm]
    have hsi : (gather_S50257x1024_S4096x1_S4096x1024_1_0_n_n_0_1_11024).siIdx (ix2 n d) ⟨List.idxOf (0 : Fin 2) (gather_S50257x1024_S4096x1_S4096x1024_1_0_n_n_0_1_11024).startIndexMap, List.idxOf_lt_length_iff.2 hm⟩
        = ix2 n (0 : Fin 1) := by
      funext b
      match b with
      | ⟨0, _⟩ => exact Fin.ext rfl
      | ⟨1, _⟩ => exact Fin.ext rfl
    rw [hsi]
    rfl
  | ⟨1, _⟩ =>
    have hm : (1 : Fin 2) ∉ (gather_S50257x1024_S4096x1_S4096x1024_1_0_n_n_0_1_11024).startIndexMap := by
      intro h; exact absurd (List.mem_singleton.mp h) (by decide)
    show (gather_S50257x1024_S4096x1_S4096x1024_1_0_n_n_0_1_11024).start (ix2 n d) idx 1 + (gather_S50257x1024_S4096x1_S4096x1024_1_0_n_n_0_1_11024).batchCoord (ix2 n d) 1 + (gather_S50257x1024_S4096x1_S4096x1024_1_0_n_n_0_1_11024).offCoord (ix2 n d) 1 = _
    rw [GatherDims.batchCoord_eq_zero _ _ _ (hnb 1)]
    unfold GatherDims.start
    rw [dif_neg hm]
    simp only [Nat.add_zero, Nat.zero_add]
    rfl

/-- A label in range, read signed and clamped into the vocabulary, is its unsigned reading. -/
theorem clamp_label (a : BitVec 32) (h0 : 0 ≤ a.toInt) (h1 : a.toInt < 50257) :
    min a.toInt.toNat 50256 = a.toNat := by
  have hlt : a.toNat < 2 ^ 32 := a.isLt
  unfold BitVec.toInt at h0 h1 ⊢
  split at h0 <;> omega

/-- A label column laid out as [4096, 1] reads the label of its row. -/
theorem label_col (t : IVec S4096 32) (n : Fin 4096) :
    broadcastInDim S4096x1 ![0] bcast_S4096_S4096x1_0 t (ix2 n (0 : Fin 1)) = t (ix1 n) :=
  broadcastInDim_apply ![0] bcast_S4096_S4096x1_0 t (ix2 n (0 : Fin 1)) (ix1 n) (fun a => by
    match a with
    | ⟨0, _⟩ => rfl)

/-- The product of x's row with the gathered weight row, summed over the features from zero, is the logit at the
    row's label. -/
theorem label_logit (x : FVec Ideal S4096x1024 .f32) (w : FVec Ideal S50257x1024 .f32) (t : IVec S4096 32)
    (ht : ∀ i, 0 ≤ (t i).toInt ∧ (t i).toInt < 50257) (n : Fin 4096) :
    Host.reduceAdd (F := Ideal)
      (mulf x (Host.gather gather_S50257x1024_S4096x1_S4096x1024_1_0_n_n_0_1_11024 w (broadcastInDim S4096x1 ![0] bcast_S4096_S4096x1_0 t)))
      (constant (F := Ideal) S_ .f32 0x00000000#32) reducesTo_S4096x1024_S4096_d1 h_S_ (ix1 n)
      = Cert.Spec.tlogit x w t n := by
  have hR : S4096x1024.Reduces [1] S4096 := by decide
  have hc := clamp_label (t (ix1 n)) (ht (ix1 n)).1 (ht (ix1 n)).2
  have hl : Cert.Spec.label t n < 50257 := by
    unfold Cert.Spec.label
    have := (ht (ix1 n)).2
    omega
  rw [hostReduceAdd_apply, Ideal.hostReduceAdd_single reducesTo_S4096x1024_S4096_d1 hR, constant_apply,
    Ideal.ofBits_zero_f32, zero_add]
  unfold Cert.Spec.tlogit
  rw [dif_pos hl]
  unfold Cert.Spec.logit
  show ∑ d : Fin 1024, mulf x (Host.gather gather_S50257x1024_S4096x1_S4096x1024_1_0_n_n_0_1_11024 w (broadcastInDim S4096x1 ![0] bcast_S4096_S4096x1_0 t))
    (hR.lift (ix1 n) d) = _
  refine Finset.sum_congr rfl fun d _ => ?_
  have hlift : hR.lift (ix1 n) d = ix2 n d := by
    funext a
    match a with
    | ⟨0, _⟩ => exact Fin.ext rfl
    | ⟨1, _⟩ => exact Fin.ext rfl
  rw [hlift, mulf_apply, gather_row]
  congr 3
  apply Fin.ext
  show min (broadcastInDim S4096x1 ![0] bcast_S4096_S4096x1_0 t (ix2 n (0 : Fin 1))).toInt.toNat 50256 = (t (ix1 n)).toNat
  rw [label_col]
  exact hc

/-- With each row's log-sum-exp in the output column and every label in range, the composed tail is the loss. -/
theorem tailFn_eq_loss (x : FVec Ideal S4096x1024 .f32) (w : FVec Ideal S50257x1024 .f32) (t : IVec S4096 32)
    (o : FVec Ideal S4096x1 .f32)
    (ho : ∀ n : Fin 4096, o (ix2 n (0 : Fin 1)) = Cert.Spec.lse (Cert.Spec.logit x w n))
    (ht : ∀ i, 0 ≤ (t i).toInt ∧ (t i).toInt < 50257)
    (h : Cert.Spec.ST.ReducesTo [0] Cert.Spec.S0) (h0 : 0 < Cert.Spec.S0.numel) :
    tailFn x w t o = Cert.Spec.loss h h0 x w t := by
  have key : subf (shapeCast S4096 o shapeCasts_S4096x1_S4096)
      (Host.reduceAdd (F := Ideal)
        (mulf x (Host.gather gather_S50257x1024_S4096x1_S4096x1024_1_0_n_n_0_1_11024 w (broadcastInDim S4096x1 ![0] bcast_S4096_S4096x1_0 t)))
        (constant (F := Ideal) S_ .f32 0x00000000#32) reducesTo_S4096x1024_S4096_d1 h_S_)
      = fun i => Cert.Spec.rowLoss x w t (i 0) := by
    funext i
    obtain ⟨n, rfl⟩ : ∃ n : Fin 4096, i = ix1 n := ⟨i 0, eq_ix1 i⟩
    have hs : shapeCast S4096 o shapeCasts_S4096x1_S4096 (ix1 n) = o (ix2 n (0 : Fin 1)) :=
      shapeCast_apply o shapeCasts_S4096x1_S4096 (ix1 n) (ix2 n (0 : Fin 1)) (by
        rw [Shape.rowMajor_val_two, Shape.rowMajor_val_one]
        show n.val * 1 + 0 = n.val
        omega)
    rw [subf_apply, label_logit x w t ht n, hs, ho n]
    rfl
  unfold tailFn
  rw [labels_norm t ht, key]
  rfl

end Cert.KernelIdeal.Tail

end
-- ==== Proof.IOutTail.lean ====
/-
  The idealized program's result after the host operations that follow the region: their composition applied to the
  three arguments and the output column the region left.
-/
import proofs.«417856_j14267881357585_3_alg».proof.Proof.IFrame
import proofs.«417856_j14267881357585_3_alg».proof.Proof.ITail

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Idealize.ShloMosaic.ValueIdx

variable (m : (ℓ : Loc nD τ sig) → Buf (Elt Ideal) ℓ) (ρ : Dev nD → PrngReg)

/-- The program's result: the host tail's composition at the arguments and the region's output column. -/
theorem tail_v14 (c : Dev nD) :
    (Pipeline.afterTail₀ cfgs (dats m) 0 (V0 m) [hostOps1] c main_v14 : S_.Idx → EReal)
      = Cert.KernelIdeal.Tail.tailFn (m ((c : Thread nD τ).loc main_arg0)) (m ((c : Thread nD τ).loc main_arg1))
          (m ((c : Thread nD τ).loc main_arg2)) ((dats m 0 c).arrAt 2 cfg0.N) := by
  unfold Pipeline.afterTail₀
  show StableHlo.after hostOps1 _ (Proc.devRef .tc main_v14) = _
  after_results
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have e1 : Pipeline.withArrays (cfgs 0).spec c (V0 m c) (fun w => (dats m 0 c).arrAt w (cfgs 0).N) (Proc.devRef .tc main_arg1)
      = m ((c : Thread nD τ).loc main_arg1) :=
    (Pipeline.withArrays_arr spec0 launch0.win.arr_inj c _ _ 1).trans
      (((dats m 0 c).arrAt_in 1 rfl _).trans ((A_eq m c 1).trans (V_main_arg1 m c)))
  have ev : Pipeline.withArrays (cfgs 0).spec c (V0 m c) (fun w => (dats m 0 c).arrAt w (cfgs 0).N) (Proc.devRef .tc main_v1)
      = (dats m 0 c).arrAt 2 cfg0.N :=
    Pipeline.withArrays_arr spec0 launch0.win.arr_inj c _ _ 2
  rw [e0, e1, e2, ev]
  rfl

end Cert.KernelIdeal.Body

end
-- ==== Proof.RefValue.lean ====
/-
  The reference's result is the loss.

  The reference forms the 4096 x 50257 logits by one product, shifts each row by its maximum, takes the logarithm of
  the row's sum of exponentials, reads the shifted log-probability at the row's label, negates it and takes the mean.
  Row by row that negated entry is the row's log-sum-exp less the logit at the label, while the logits are real
  numbers and the label is in range (inside the range the reference's own range test passes and its gather reads
  the label's column).
-/
import proofs.«417856_j14267881357585_3_alg».proof.Proof.RefRead
import proofs.«417856_j14267881357585_3_alg».proof.Proof.Online

noncomputable section

namespace Cert.RefValue

open Idealize.ShloMosaic Idealize.ShloMosaic.ValueIdx Cert.ReferenceIdeal Cert.ReferenceIdeal.Gen

/-- The reference's product at row `n`, column `v` is the logit. -/
theorem logits_apply (x : (⟨S4096x1024, .f32⟩ : BufTy).Contents (Elt Ideal)) (w : (⟨S50257x1024, .f32⟩ : BufTy).Contents (Elt Ideal)) (n : Fin 4096) (v : Fin 50257) :
    Read.val_main_v0 (F := Ideal) x w (ix2 n v) = Cert.Spec.logit x w n v := by
  rw [Read.val_main_v0_apply]
  unfold Cert.Spec.logit
  refine Finset.sum_congr rfl fun k _ => ?_
  have el : Read.lidx_main_v0 (ix2 n v) k = ix2 n k := funext fun a => by
    match a with
    | ⟨0, _⟩ => rfl
    | ⟨1, _⟩ => rfl
  have er : Read.ridx_main_v0 (ix2 n v) k = ix2 v k := funext fun a => by
    match a with
    | ⟨0, _⟩ => rfl
    | ⟨1, _⟩ => rfl
  rw [el, er]

/-- The word of negative infinity is the bottom element. -/
theorem ofBits_neg_inf : Ideal.ofBits .f32 0xFF800000#32 = (⊥ : EReal) := by simp [Ideal.ofBits, Ideal.ieee]

/-- Row `n` with column `v` put back is (n, v). -/
theorem lift_row (h : S4096x50257.Reduces [1] S4096) (n : Fin 4096) (v : Fin (S4096x50257.size 1)) :
    h.lift (ix1 n) v = ix2 n (⟨v.val, v.isLt⟩ : Fin 50257) := by
  funext c; apply Fin.ext
  fin_cases c <;> rfl

/-- The reference's row maximum is the maximum of the row's logits. -/
theorem rowMax_apply (x : (⟨S4096x1024, .f32⟩ : BufTy).Contents (Elt Ideal)) (w : (⟨S50257x1024, .f32⟩ : BufTy).Contents (Elt Ideal)) (n : Fin 4096) :
    Read.val_main_call0_v0 (F := Ideal) x w (ix1 n) = Cert.Spec.rowMax (Cert.Spec.logit x w n) := by
  unfold Read.val_main_call0_v0
  rw [Host.reduce_eq_fold_single FloatOps.maximumf _ _ reducesTo_S4096x50257_S4096_d1 (by decide) h_S_]
  have hf : (Read.val_main_v0 (F := Ideal) x w ∘ Shape.Reduces.lift (by decide : S4096x50257.Reduces [1] S4096) (ix1 n))
      = fun v : Fin 50257 => Cert.Spec.logit x w n v := funext fun v => by
    exact (congrArg (Read.val_main_v0 (F := Ideal) x w) (lift_row _ n v)).trans (logits_apply x w n ⟨v.val, v.isLt⟩)
  have hi : Read.val_main_call0_cst (F := Ideal) (Shape.Idx.first h_S_) = (⊥ : EReal) := ofBits_neg_inf
  unfold Cert.Spec.rowMax
  exact (congrArg (fun f => Finset.fold max (Read.val_main_call0_cst (F := Ideal) (Shape.Idx.first h_S_)) f (Finset.univ : Finset (Fin 50257))) hf).trans
    (congrArg (fun b => Finset.fold max b (Cert.Spec.logit x w n) (Finset.univ : Finset (Fin 50257))) hi)

/-- The row maximum joined with negative infinity and broadcast over the row's columns. -/
theorem rowMax_bcast_apply (x : (⟨S4096x1024, .f32⟩ : BufTy).Contents (Elt Ideal)) (w : (⟨S50257x1024, .f32⟩ : BufTy).Contents (Elt Ideal)) (n : Fin 4096) (v : Fin 50257) :
    Read.val_main_call0_v4 (F := Ideal) x w (ix2 n v) = Cert.Spec.rowMax (Cert.Spec.logit x w n) := by
  rw [Read.val_main_call0_v4_apply, Read.val_main_call0_v3_apply, Read.val_main_call0_v2_apply, Read.val_main_call0_v1_apply,
    Read.val_main_call0_cst_0_apply]
  have e : Read.idx_main_call0_v3 (Read.idx_main_call0_v4 (ix2 n v)) = ix1 n := funext fun a => by
    match a with
    | ⟨0, _⟩ => rfl
  rw [e, rowMax_apply]
  show max (Ideal.ofBits .f32 0xFF800000#32) _ = _
  rw [ofBits_neg_inf]
  exact bot_sup_eq _

/-- The shifted logit. -/
theorem shifted_apply (x : (⟨S4096x1024, .f32⟩ : BufTy).Contents (Elt Ideal)) (w : (⟨S50257x1024, .f32⟩ : BufTy).Contents (Elt Ideal)) (n : Fin 4096) (v : Fin 50257) :
    Read.val_main_call0_v5 (F := Ideal) x w (ix2 n v)
      = Cert.Spec.logit x w n v - Cert.Spec.rowMax (Cert.Spec.logit x w n) := by
  rw [Read.val_main_call0_v5_apply, logits_apply, rowMax_bcast_apply]
  exact Ideal.subf_def _ _

/-- The reference's row sum of exponentials is the shifted sum. -/
theorem rowSum_apply (x : (⟨S4096x1024, .f32⟩ : BufTy).Contents (Elt Ideal)) (w : (⟨S50257x1024, .f32⟩ : BufTy).Contents (Elt Ideal)) (n : Fin 4096) :
    Read.val_main_call0_v7 (F := Ideal) x w (ix1 n) = Cert.Spec.rowSum (Cert.Spec.logit x w n) := by
  rw [Read.val_main_call0_v7_apply, Read.val_main_call0_cst_1_apply]
  show Ideal.ofBits .f32 0x00000000#32 + _ = _
  rw [Ideal.ofBits_zero_f32, zero_add]
  unfold Cert.Spec.rowSum
  refine Finset.sum_congr rfl fun v _ => ?_
  have e : Read.idx_main_call0_v7 (ix1 n) v = ix2 n v := funext fun a => by
    match a with
    | ⟨0, _⟩ => rfl
    | ⟨1, _⟩ => rfl
  rw [e, Read.val_main_call0_v6_apply, shifted_apply]
  exact Ideal.hostUnary_exp_def _

/-- The logarithm of the row sum, broadcast over the row's columns. -/
theorem logSum_bcast_apply (x : (⟨S4096x1024, .f32⟩ : BufTy).Contents (Elt Ideal)) (w : (⟨S50257x1024, .f32⟩ : BufTy).Contents (Elt Ideal)) (n : Fin 4096) (v : Fin 50257) :
    Read.val_main_call0_v10 (F := Ideal) x w (ix2 n v) = Ideal.log (Cert.Spec.rowSum (Cert.Spec.logit x w n)) := by
  rw [Read.val_main_call0_v10_apply, Read.val_main_call0_v9_apply, Read.val_main_call0_v8_apply]
  have e : Read.idx_main_call0_v8 (Read.idx_main_call0_v10 (ix2 n v)) = ix1 n := funext fun a => by
    match a with
    | ⟨0, _⟩ => rfl
  rw [e, rowSum_apply]
  exact Ideal.hostUnary_log_def _

/-- The reference's log-probability at row `n`, column `v`. -/
theorem logProb_apply (x : (⟨S4096x1024, .f32⟩ : BufTy).Contents (Elt Ideal)) (w : (⟨S50257x1024, .f32⟩ : BufTy).Contents (Elt Ideal)) (n : Fin 4096) (v : Fin 50257) :
    Read.val_main_v1 (F := Ideal) x w (ix2 n v)
      = (Cert.Spec.logit x w n v - Cert.Spec.rowMax (Cert.Spec.logit x w n))
        - Ideal.log (Cert.Spec.rowSum (Cert.Spec.logit x w n)) := by
  rw [Read.val_main_v1_apply, shifted_apply, logSum_bcast_apply]
  exact Ideal.subf_def _ _

/-- The label column the reference's gather reads: the label itself, while it is not negative. -/
theorem index_apply (t : (⟨S4096, .i32⟩ : BufTy).Contents (Elt Ideal)) (n : Fin 4096) (h0 : 0 ≤ (t (ix1 n)).toInt) :
    Read.val_main_call1_v5 (F := Ideal) t (ix3 n (0 : Fin 1) (0 : Fin 1)) = t (ix1 n) := by
  have e5 : Read.idx_main_call1_v5 (ix3 n (0 : Fin 1) (0 : Fin 1)) = ix2 n (0 : Fin 1) := funext fun a => by
    match a with
    | ⟨0, _⟩ => exact Fin.ext (by show ((n.val * 1 + 0) * 1 + 0) / 1 = n.val; omega)
    | ⟨1, _⟩ => rfl
  have e2 : Read.idx_main_v2 (ix2 n (0 : Fin 1)) = ix1 n := funext fun a => by
    match a with
    | ⟨0, _⟩ => rfl
  rw [Read.val_main_call1_v5_apply, e5, Read.val_main_call1_v4_apply, Read.val_main_call1_v1_apply, Read.val_main_v2_apply, e2,
    Read.val_main_call1_v0_apply, Read.val_main_call1_c_apply]
  have hc : IntOp.cmpi .slt (t (ix1 n)) 0#32 = 0#1 := by
    apply eq_zero_of_ne_one
    rw [IntOp.cmpi_slt]
    have z : (0#32 : BitVec 32).toInt = 0 := by decide
    rw [z]; omega
  rw [hc, select_zero]

/-- A fold of `and` over the one-element index set is one `and`. -/
theorem fold_andi_fin1 (b : BitVec 1) (f : Fin 1 → BitVec 1) :
    Finset.fold IntOp.andi b f (Finset.univ : Finset (Fin 1)) = IntOp.andi (f 0) b := by
  rw [Finset.univ_unique, Finset.fold_singleton]
  rfl

/-- Inside the vocabulary's range the reference's range test passes. -/
theorem inRange_apply (t : (⟨S4096, .i32⟩ : BufTy).Contents (Elt Ideal)) (n : Fin 4096) (h0 : 0 ≤ (t (ix1 n)).toInt) (h1 : (t (ix1 n)).toInt < 50257) :
    Read.val_main_call1_v12 (F := Ideal) t (ix2 n (0 : Fin 1)) = 1#1 := by
  have hR : S4096x1x1.Reduces [2] S4096x1 := by decide
  unfold Read.val_main_call1_v12
  rw [Host.reduce_eq_fold_single IntOp.andi _ _ reducesTo_S4096x1x1_S4096x1_d2 hR h_S_]
  refine (fold_andi_fin1 _ _).trans ?_
  have el : hR.lift (ix2 n (0 : Fin 1)) (0 : Fin 1) = ix3 n (0 : Fin 1) (0 : Fin 1) := by
    funext c; apply Fin.ext
    fin_cases c <;> rfl
  show IntOp.andi (Read.val_main_call1_v11 (F := Ideal) t (hR.lift (ix2 n (0 : Fin 1)) (0 : Fin 1))) 1#1 = 1#1
  rw [el, Read.val_main_call1_v11_apply, Read.val_main_call1_v7_apply, Read.val_main_call1_v10_apply, index_apply t n h0,
    Read.val_main_call1_v6_apply, Read.val_main_call1_c_2_apply, Read.val_main_call1_v9_apply, Read.val_main_call1_v8_apply,
    Read.val_main_call1_c_1_apply]
  have z : (0#32 : BitVec 32).toInt = 0 := by decide
  have z1 : (50256#32 : BitVec 32).toInt = 50256 := by decide
  have a1 : IntOp.cmpi .sge (t (ix1 n)) 0#32 = 1#1 := by rw [IntOp.cmpi_sge, z]; exact h0
  have a2 : IntOp.cmpi .sle (t (ix1 n)) 50256#32 = 1#1 := by rw [IntOp.cmpi_sle, z1]; omega
  rw [a1, a2]
  decide

/-- A word whose signed value is at least 0 and below 50257 has that value as its unsigned value. -/
theorem toNat_of_range (a : BitVec 32) (h0 : 0 ≤ a.toInt) (h1 : a.toInt < 50257) :
    a.toNat < 50257 ∧ a.toInt = (a.toNat : Int) := by
  have h := BitVec.toInt_eq_toNat_cond a
  have hlt := a.isLt
  split at h <;> omega

/-- Inside the range the reference's gather reads the log-probability at the label's column. -/
theorem gather_apply (x : (⟨S4096x1024, .f32⟩ : BufTy).Contents (Elt Ideal)) (w : (⟨S50257x1024, .f32⟩ : BufTy).Contents (Elt Ideal)) (t : (⟨S4096, .i32⟩ : BufTy).Contents (Elt Ideal)) (n : Fin 4096)
    (h0 : 0 ≤ (t (ix1 n)).toInt) (h1 : (t (ix1 n)).toInt < 50257) (hlt : (t (ix1 n)).toNat < 50257) :
    Read.val_main_call1_v13 (F := Ideal) x w t (ix2 n (0 : Fin 1))
      = Read.val_main_v1 (F := Ideal) x w (ix2 n (⟨(t (ix1 n)).toNat, hlt⟩ : Fin 50257)) := by
  unfold Read.val_main_call1_v13 Host.gather
  refine congrArg (Read.val_main_v1 (F := Ideal) x w) ?_
  funext a
  apply Fin.ext
  match a with
  | ⟨0, _⟩ =>
    show gather_S4096x50257_S4096x1x1_S4096x1_n_1_0_0_1_2_11.start (ix2 n (0 : Fin 1)) (Read.val_main_call1_v5 (F := Ideal) t) (0 : Fin 2)
      + gather_S4096x50257_S4096x1x1_S4096x1_n_1_0_0_1_2_11.batchCoord (ix2 n (0 : Fin 1)) (0 : Fin 2)
      + gather_S4096x50257_S4096x1x1_S4096x1_n_1_0_0_1_2_11.offCoord (ix2 n (0 : Fin 1)) (0 : Fin 2) = n.val
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    rfl
  | ⟨1, _⟩ =>
    show gather_S4096x50257_S4096x1x1_S4096x1_n_1_0_0_1_2_11.start (ix2 n (0 : Fin 1)) (Read.val_main_call1_v5 (F := Ideal) t) (1 : Fin 2)
      + gather_S4096x50257_S4096x1x1_S4096x1_n_1_0_0_1_2_11.batchCoord (ix2 n (0 : Fin 1)) (1 : Fin 2)
      + gather_S4096x50257_S4096x1x1_S4096x1_n_1_0_0_1_2_11.offCoord (ix2 n (0 : Fin 1)) (1 : Fin 2) = (t (ix1 n)).toNat
    rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (1 : Fin 2) ∈ gather_S4096x50257_S4096x1x1_S4096x1_n_1_0_0_1_2_11.startIndexMap from List.mem_singleton.mpr rfl)]
    have hsi : gather_S4096x50257_S4096x1x1_S4096x1_n_1_0_0_1_2_11.siIdx (ix2 n (0 : Fin 1))
        ⟨List.idxOf (1 : Fin 2) gather_S4096x50257_S4096x1x1_S4096x1_n_1_0_0_1_2_11.startIndexMap,
          List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi, index_apply t n h0]
    show min (t (ix1 n)).toInt.toNat (50257 - 1) + 0 + 0 = (t (ix1 n)).toNat
    obtain ⟨_, hti⟩ := toNat_of_range _ h0 h1
    rw [hti, Int.toNat_natCast]
    omega

/-- Row `n`'s entry of the reference's negated gather is the row's loss. -/
theorem rowLoss_apply (x : (⟨S4096x1024, .f32⟩ : BufTy).Contents (Elt Ideal)) (w : (⟨S50257x1024, .f32⟩ : BufTy).Contents (Elt Ideal)) (t : (⟨S4096, .i32⟩ : BufTy).Contents (Elt Ideal))
    (hx : ∀ i, ∃ r : ℝ, x i = (r : EReal)) (hw : ∀ i, ∃ r : ℝ, w i = (r : EReal))
    (ht : ∀ i, 0 ≤ (t i).toInt ∧ (t i).toInt < 50257) (n : Fin 4096) :
    Read.val_main_v5 (F := Ideal) x w t (ix1 n) = Cert.Spec.rowLoss x w t n := by
  obtain ⟨h0, h1⟩ := ht (ix1 n)
  obtain ⟨hlt, _⟩ := toNat_of_range _ h0 h1
  have e4 : Read.idx_main_v4 (ix1 n) = ix2 n (0 : Fin 1) := funext fun a => by
    match a with
    | ⟨0, _⟩ => exact Fin.ext (Nat.div_one _)
    | ⟨1, _⟩ => rfl
  rw [Read.val_main_v5_apply, Read.val_main_v4_apply, e4, Read.val_main_v3_apply, inRange_apply t n h0 h1, select_one,
    gather_apply x w t n h0 h1 hlt, logProb_apply, Ideal.hostNegf_def, Ideal.negf_def]
  unfold Cert.Spec.rowLoss Cert.Spec.tlogit Cert.Spec.label
  rw [dif_pos hlt]
  exact Cert.Online.neg_shifted_eq (Cert.Spec.logit x w n) (fun v => Cert.Online.logit_real x w hx hw n v) ⟨_, hlt⟩

/-- The reference's last stage, as a function of the three arguments, is the loss. -/
theorem ref_eq_loss (x : (⟨S4096x1024, .f32⟩ : BufTy).Contents (Elt Ideal)) (w : (⟨S50257x1024, .f32⟩ : BufTy).Contents (Elt Ideal))
    (t : (⟨S4096, .i32⟩ : BufTy).Contents (Elt Ideal))
    (hx : ∀ i, ∃ r : ℝ, x i = (r : EReal)) (hw : ∀ i, ∃ r : ℝ, w i = (r : EReal))
    (ht : ∀ i, 0 ≤ (t i).toInt ∧ (t i).toInt < 50257)
    (h : Cert.Spec.ST.ReducesTo [0] Cert.Spec.S0) (h0 : 0 < Cert.Spec.S0.numel) :
    Cert.ReferenceIdeal.Read.val_main_v7 (F := Ideal) x w t = Cert.Spec.loss h h0 x w t := by
  have e : Read.val_main_v5 (F := Ideal) x w t = fun i => Cert.Spec.rowLoss x w t (i 0) := funext fun i =>
    (congrArg (Read.val_main_v5 (F := Ideal) x w t) (eq_ix1 i)).trans (rowLoss_apply x w t hx hw ht (i 0))
  unfold Read.val_main_v7 Read.val_main_v6 Cert.Spec.loss Cert.Spec.mean
  rw [e]
  rfl

end Cert.RefValue

end
-- ==== Proof.PreFacts.lean ====
/-
  What the precondition says of the three argument arrays: every entry of x and of weight is a real number, and
  every label lies in the vocabulary's range.
-/
import proofs.«417856_j14267881357585_3_alg».proof.Pre_finite_inputs
import proofs.«417856_j14267881357585_3_alg».proof.Proof.Gen.Pre_finite_inputs
import Idealize.ShloMosaic.PureOps.Ideal
import Idealize.ShloMosaic.Lib.ReduceAll
import Idealize.ShloMosaic.Lib.StableHlo.Predicate

noncomputable section

namespace Cert.PreFacts

open Idealize.ShloMosaic Cert.Pre_finite_inputs Cert.Pre_finite_inputs.Gen

/-- The shape without axes has one index. -/
instance : Subsingleton S_.Idx := ⟨fun a b => funext fun d => d.elim0⟩

/-- An extended real whose absolute value lies below the top element is a real number. -/
theorem real_of_abs_lt (a : EReal)
    (h : FloatOps.cmpf (F := Ideal) (φ := .f32) .olt (FloatOps.hostAbsf (F := Ideal) (φ := .f32) a)
      (FloatOps.ofBits (F := Ideal) .f32 0x7F800000#32) = 1#1) :
    ∃ r : ℝ, a = (r : EReal) := by
  have e : Ideal.ofBits .f32 0x7F800000#32 = (⊤ : EReal) := by simp [Ideal.ofBits, Ideal.ieee]
  have h' : Ideal.cmp .olt (max a (-a)) (Ideal.ofBits .f32 0x7F800000#32) = 1#1 := h
  rw [e] at h'
  simp only [Ideal.cmp, StableHlo.Predicate.ofBool_eq_one_iff, decide_eq_true_eq] at h'
  induction a with
  | bot => exact absurd h' (by simp)
  | coe r => exact ⟨r, rfl⟩
  | top => exact absurd h' (by simp)

/-- A word that compares signed-at-least to the zero word has a nonnegative signed value. -/
theorem nonneg_of_sge (a : BitVec 32) (h : IntOp.cmpi .sge a 0#32 = 1#1) : 0 ≤ a.toInt := by
  simp only [IntOp.cmpi, StableHlo.Predicate.ofBool_eq_one_iff, BitVec.sle, decide_eq_true_eq] at h
  exact h

/-- A word that compares signed-below the word of 50257 has a signed value below 50257. -/
theorem lt_of_slt (a : BitVec 32) (h : IntOp.cmpi .slt a 50257#32 = 1#1) : a.toInt < 50257 := by
  simp only [IntOp.cmpi, StableHlo.Predicate.ofBool_eq_one_iff, BitVec.slt, decide_eq_true_eq] at h
  exact h

/-- The precondition's four conjuncts, each read at every element. -/
theorem split (x : FVec Ideal S4096x1024 .f32) (w : FVec Ideal S50257x1024 .f32) (t : IVec S4096 32)
    (h : Cert.Pre_finite_inputs.fn (F := Ideal) x w t = fun _ => 1#1) :
    (∀ i, cmpf CmpFPredicate.olt (Host.absf x)
      (broadcastInDim S4096x1024 ![] bcast_S_S4096x1024 (constant (F := Ideal) S_ FTy.f32 0x7F800000#32)) i = 1#1) ∧
    (∀ i, cmpf CmpFPredicate.olt (Host.absf w)
      (broadcastInDim S50257x1024 ![] bcast_S_S50257x1024 (constant (F := Ideal) S_ FTy.f32 0x7F800000#32)) i = 1#1) ∧
    (∀ i, cmpi CmpIPredicate.sge t (broadcastInDim S4096 ![] bcast_S_S4096 (constantI S_ 32 0#32)) i = 1#1) ∧
    (∀ i, cmpi CmpIPredicate.slt t (broadcastInDim S4096 ![] bcast_S_S4096 (constantI S_ 32 50257#32)) i = 1#1) := by
  have h0 := congrFun h (fun d => d.elim0)
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨Host.reduce_andi_all _ _ _ _ _ h1, Host.reduce_andi_all _ _ _ _ _ h2, Host.reduce_andi_all _ _ _ _ _ h3,
    Host.reduce_andi_all _ _ _ _ _ h4⟩

/-- Every entry of x is a real number. -/
theorem finite_x (x : FVec Ideal S4096x1024 .f32) (w : FVec Ideal S50257x1024 .f32) (t : IVec S4096 32)
    (h : Cert.Pre_finite_inputs.fn (F := Ideal) x w t = fun _ => 1#1) : ∀ i, ∃ r : ℝ, x i = (r : EReal) :=
  fun i => real_of_abs_lt (x i) ((split x w t h).1 i)

/-- Every entry of weight is a real number. -/
theorem finite_w (x : FVec Ideal S4096x1024 .f32) (w : FVec Ideal S50257x1024 .f32) (t : IVec S4096 32)
    (h : Cert.Pre_finite_inputs.fn (F := Ideal) x w t = fun _ => 1#1) : ∀ i, ∃ r : ℝ, w i = (r : EReal) :=
  fun i => real_of_abs_lt (w i) ((split x w t h).2.1 i)

/-- Every label, read as a signed word, is at least 0 and below 50257. -/
theorem label_range (x : FVec Ideal S4096x1024 .f32) (w : FVec Ideal S50257x1024 .f32) (t : IVec S4096 32)
    (h : Cert.Pre_finite_inputs.fn (F := Ideal) x w t = fun _ => 1#1) : ∀ i, 0 ≤ (t i).toInt ∧ (t i).toInt < 50257 :=
  fun i => ⟨nonneg_of_sge (t i) ((split x w t h).2.2.1 i), lt_of_slt (t i) ((split x w t h).2.2.2 i)⟩

end Cert.PreFacts

end
-- ==== Proof.lean ====
/-
  The certificate's five claims.

  The kernel computes each row's log-sum-exp over the 50257 vocabulary logits in running form, 50 tiles of 1024
  columns at a time: a running maximum m and a running sum l per row, rescaled by exp (m - m') when the maximum moves,
  the columns of the last tile past the vocabulary's end filled with a large negative number that the idealization
  names `⊥` (exp ⊥ = 0 drops them, and the maximum ignores them); the host then subtracts the logit at the label —
  a gather of weight's row and a row product — and takes the mean.  The reference forms all the logits at once,
  shifts each row by its maximum, reads the log-probability at the label and takes the mean of its negation.  Over the
  extended reals, for real inputs and labels inside the vocabulary, both are the mean of log-sum-exp less the logit
  at the label: the running pair after the last tile is (max, Σ exp (logit - max)), because rescaling by
  exp (m - m') moves a sum of exponentials from one shift to another.

  The frames: the word-level kernel's from relational proof data (what its body leaves is not named: the last weight
  block's rows past the array's end hold arbitrary words), the idealized kernel's from proof data that names the two
  running columns point by point, the reference's from its run.  `preserves`: the two places the fill value stands
  are the one rule's statement.  `algebraic`: both runs end at the loss of the arguments.
-/
import proofs.«417856_j14267881357585_3_alg».proof.Defs
import proofs.«417856_j14267881357585_3_alg».proof.Proof.Gen.Kernel
import proofs.«417856_j14267881357585_3_alg».proof.Proof.Gen.KernelIdeal
import proofs.«417856_j14267881357585_3_alg».proof.Proof.Gen.ReferenceIdeal
import proofs.«417856_j14267881357585_3_alg».proof.Proof.Gen.Pre_finite_inputs
import proofs.«417856_j14267881357585_3_alg».proof.Proof.KFrame
import proofs.«417856_j14267881357585_3_alg».proof.Proof.IOutCol
import proofs.«417856_j14267881357585_3_alg».proof.Proof.IOutTail
import proofs.«417856_j14267881357585_3_alg».proof.Proof.RefRun
import proofs.«417856_j14267881357585_3_alg».proof.Proof.RefValue
import proofs.«417856_j14267881357585_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The fill value stands in two places of the body — the reset of the running maximum and the mask's fill — and at
    each the name denotes `⊥` by the certificate's table. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both idealized programs end at the loss of the arguments. -/
theorem algebraic : Cert.algebraic_KernelIdeal_ReferenceIdeal := by
  intro m ρ m' ρ' hpre hagree
  have hx := fun c => Cert.PreFacts.finite_x _ _ _ (hpre c)
  have hw := fun c => Cert.PreFacts.finite_w _ _ _ (hpre c)
  have ht := fun c => Cert.PreFacts.label_range _ _ _ (hpre c)
  refine ⟨fun c => Cert.Spec.loss Cert.KernelIdeal.Gen.reducesTo_S4096_S_d0 Cert.KernelIdeal.Gen.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Body.run_main m ρ)
    · rw [(h c).2 Cert.KernelIdeal.main_v14 (Pipeline.mem_restRefs_of Cert.KernelIdeal.main_v14 (by decide) (by decide))]
      exact (Cert.KernelIdeal.Body.tail_v14 m c).trans
        (Cert.KernelIdeal.Tail.tailFn_eq_loss _ _ _ _ (Cert.KernelIdeal.Body.final_out m c (hx c) (hw c)) (ht c) _ _)
    · exact ((h c).2 Cert.KernelIdeal.main_arg0 (Pipeline.mem_restRefs_of Cert.KernelIdeal.main_arg0 (by decide) (by decide))).trans
        (Cert.KernelIdeal.Gen.W_main_arg0 m (Cert.KernelIdeal.Body.dats m) c)
    · exact ((h c).1 1).trans (((Cert.KernelIdeal.Body.dats m 0 c).arrAt_in 1 rfl _).trans
        ((Cert.KernelIdeal.Body.A_eq m c 1).trans (Cert.KernelIdeal.Gen.V_main_arg1 m c)))
    · exact ((h c).2 Cert.KernelIdeal.main_arg2 (Pipeline.mem_restRefs_of Cert.KernelIdeal.main_arg2 (by decide) (by decide))).trans
        (Cert.KernelIdeal.Gen.W_main_arg2 m (Cert.KernelIdeal.Body.dats m) c)
  · refine (θ_run Cert.ReferenceIdeal.defs _ _).mono (fun r h c => ⟨?_, (h c).2⟩) (Cert.ReferenceIdeal.Value.run (F := Ideal) m' ρ')
    rw [(h c).1, (hagree c).1, (hagree c).2.1, (hagree c).2.2]
    exact Cert.RefValue.ref_eq_loss _ _ _ (hx c) (hw c) (ht c) _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
